-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x16x2x512x512 : Shape := ⟨5, ![6, 16, 2, 512, 512]⟩
abbrev S16x512x512 : Shape := ⟨3, ![16, 512, 512]⟩
abbrev S_ : Shape := ⟨0, ![]⟩

class Facts : Prop where
  bcast_S_S6x16x2x512x512 : S_.BroadcastsInDim S6x16x2x512x512 (![] : Fin 0 → Fin S6x16x2x512x512.rank)
  reducesTo_S6x16x2x512x512_S_d0_1_2_3_4 : S6x16x2x512x512.ReducesTo [0, 1, 2, 3, 4] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S6x16x2x512x512 .f32) (main_arg1 : IVec S16x512x512 32) : IVec S_ 1 :=
  let main_v0 : FVec F S6x16x2x512x512 .f32 := Host.absf main_arg0
  let main_cst : FVec F S_ .f32 := constant S_ .f32 0x7F800000#32
  let main_v1 : FVec F S6x16x2x512x512 .f32 := broadcastInDim S6x16x2x512x512 ![] bcast_S_S6x16x2x512x512 main_cst
  let main_v2 : IVec S6x16x2x512x512 1 := cmpf .olt main_v0 main_v1
  let main_c : IVec S_ 1 := constantI S_ 1 1#1
  let main_v3 : IVec S_ 1 := (fun x v => Host.reduce IntOp.andi x v reducesTo_S6x16x2x512x512_S_d0_1_2_3_4 h_S_) main_v2 main_c
  let main_c_0 : IVec S_ 32 := constantI S_ 32 0#32
  let main_v4 : IVec S16x512x512 32 := broadcastInDim S16x512x512 ![] bcast_S_S16x512x512 main_c_0
  let main_v5 : IVec S16x512x512 1 := cmpi .sge main_arg1 main_v4
  let main_c_1 : IVec S_ 32 := constantI S_ 32 2#32
  let main_v6 : IVec S16x512x512 32 := broadcastInDim S16x512x512 ![] bcast_S_S16x512x512 main_c_1
  let main_v7 : IVec S16x512x512 1 := cmpi .slt main_arg1 main_v6
  let main_v8 : IVec S16x512x512 1 := andi main_v5 main_v7
  let main_c_2 : IVec S_ 1 := constantI S_ 1 1#1
  let main_v9 : IVec S_ 1 := (fun x v => Host.reduce IntOp.andi x v reducesTo_S16x512x512_S_d0_1_2 h_S_) main_v8 main_c_2
  let main_v10 : IVec S_ 1 := andi main_v3 main_v9
  main_v10
-- ==== Kernel.lean ====
abbrev S6x16x2x512x512 : Shape := ⟨5, ![6, 16, 2, 512, 512]⟩
abbrev S16x512x512 : Shape := ⟨3, ![16, 512, 512]⟩
abbrev S16x128 : Shape := ⟨2, ![16, 128]⟩
abbrev S1x16x2x64x512 : Shape := ⟨5, ![1, 16, 2, 64, 512]⟩
abbrev S16x64x512 : Shape := ⟨3, ![16, 64, 512]⟩
abbrev S8x128 : Shape := ⟨2, ![8, 128]⟩
abbrev S1x16x1x64x512 : Shape := ⟨5, ![1, 16, 1, 64, 512]⟩
abbrev S16x64 : Shape := ⟨2, ![16, 64]⟩
abbrev S16x64x1 : Shape := ⟨3, ![16, 64, 1]⟩
abbrev S16x1 : Shape := ⟨2, ![16, 1]⟩
abbrev S16x1x1 : Shape := ⟨3, ![16, 1, 1]⟩
abbrev S1x1 : Shape := ⟨2, ![1, 1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S6x16x2x512x512, .f32⟩
  | .hbm, ⟨1, _⟩ => ⟨S16x512x512, .i32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x16x2x64x512, .f32⟩
  | .local _ .vmem, ⟨1, _⟩ => ⟨S1x16x2x64x512, .f32⟩
  | .local _ .vmem, ⟨2, _⟩ => ⟨S16x64x512, .i32⟩
  | .local _ .vmem, ⟨3, _⟩ => ⟨S16x64x512, .i32⟩
  | .local _ .vmem, ⟨4, _⟩ => ⟨S8x128, .f32⟩
  | .local _ .vmem, ⟨5, _⟩ => ⟨S8x128, .f32⟩
  | _, _ => ⟨S6x16x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 8], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, arg2.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x16x2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S8x128_S8x128_0_0 : ∀ a, (![0, 0] : Fin 2 → Nat) a + S8x128.size a ≤ S8x128.size a
  h_S8x128 : 0 < S8x128.numel
  inb_S1x16x2x64x512_S1x16x1x64x512_0_0_0_0_0 : ∀ a, (![0, 0, 0, 0, 0] : Fin 5 → Nat) a + S1x16x1x64x512.size a ≤ S1x16x2x64x512.size a
  h_S1x16x1x64x512 : 0 < S1x16x1x64x512.numel
  shapeCasts_S1x16x1x64x512_S16x64x512 : S1x16x1x64x512.ShapeCasts S16x64x512
  inb_S1x16x2x64x512_S1x16x1x64x512_0_0_1_0_0 : ∀ a, (![0, 0, 1, 0, 0] : Fin 5 → Nat) a + S1x16x1x64x512.size a ≤ S1x16x2x64x512.size a
  inb_S16x64x512_S16x64x512_0_0_0 : ∀ a, (![0, 0, 0] : Fin 3 → Nat) a + S16x64x512.size a ≤ S16x64x512.size a
  h_S16x64x512 : 0 < S16x64x512.numel
  reduces_S16x64x512_S16x64 : S16x64x512.Reduces [2] S16x64
  shapeCasts_S16x64_S16x64x1 : S16x64.ShapeCasts S16x64x1
  reduces_S16x64x1_S16x1 : S16x64x1.Reduces [1] S16x1
  shapeCasts_S16x1_S16x1x1 : S16x1.ShapeCasts S16x1x1
  reduces_S16x1x1_S1x1 : S16x1x1.Reduces [0] S1x1
  inpos_S1x1_p0_0 : ∀ a, (![0, 0] : Fin 2 → Nat) a < S1x1.size a
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x2x64x512.size a ≤ S6x16x2x512x512.size a
  hwx0_0 : ∀ i : grid0.Coords, EltTy.bits .f32 = 32 ∨ (Rect.block (s := S6x16x2x512x512) S1x16x2x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x512.size a ≤ S16x512x512.size a
  hwx0_1 : ∀ i : grid0.Coords, EltTy.bits .i32 = 32 ∨ (Rect.block (s := S16x512x512) S16x64x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S1x16x2x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6x16x2x512x512 : Shape := ⟨5, ![6, 16, 2, 512, 512]⟩
abbrev S16x512x512 : Shape := ⟨3, ![16, 512, 512]⟩
abbrev S_ : Shape := ⟨0, ![]⟩
abbrev S6x16x512x512 : Shape := ⟨4, ![6, 16, 512, 512]⟩
abbrev S6x16x1x512x512 : Shape := ⟨5, ![6, 16, 1, 512, 512]⟩
abbrev S1x16x1x512x512 : Shape := ⟨5, ![1, 16, 1, 512, 512]⟩
abbrev S6x16x1x512x512x1 : Shape := ⟨6, ![6, 16, 1, 512, 512, 1]⟩
abbrev S1 : Shape := ⟨1, ![1]⟩
abbrev S1x1x1x1x1x1 : Shape := ⟨6, ![1, 1, 1, 1, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S6x16x2x512x512, .f32⟩
  | .hbm, ⟨1, _⟩ => ⟨S16x512x512, .i32⟩
  | .hbm, ⟨2, _⟩ => ⟨S_, .f32⟩
  | .hbm, ⟨3, _⟩ => ⟨S6x16x512x512, .f32⟩
  | .hbm, ⟨4, _⟩ => ⟨S_, .f32⟩
  | .hbm, ⟨5, _⟩ => ⟨S6x16x512x512, .f32⟩
  | .hbm, ⟨6, _⟩ => ⟨S6x16x512x512, .f32⟩
  | .hbm, ⟨7, _⟩ => ⟨S6x16x1x512x512, .f32⟩
  | .hbm, ⟨8, _⟩ => ⟨S6x16x2x512x512, .f32⟩
  | .hbm, ⟨9, _⟩ => ⟨S6x16x2x512x512, .f32⟩
  | .hbm, ⟨10, _⟩ => ⟨S6x16x2x512x512, .f32⟩
  | .hbm, ⟨11, _⟩ => ⟨S_, .f32⟩
  | .hbm, ⟨12, _⟩ => ⟨S6x16x512x512, .f32⟩
  | .hbm, ⟨13, _⟩ => ⟨S6x16x1x512x512, .f32⟩
  | .hbm, ⟨14, _⟩ => ⟨S6x16x1x512x512, .f32⟩
  | .hbm, ⟨15, _⟩ => ⟨S6x16x2x512x512, .f32⟩
  | .hbm, ⟨16, _⟩ => ⟨S6x16x2x512x512, .f32⟩
  | .hbm, ⟨17, _⟩ => ⟨S1x16x1x512x512, .i32⟩
  | .hbm, ⟨18, _⟩ => ⟨S6x16x1x512x512, .i32⟩
  | .hbm, ⟨19, _⟩ => ⟨S_, .i32⟩
  | .hbm, ⟨20, _⟩ => ⟨S6x16x1x512x512, .i32⟩
  | .hbm, ⟨21, _⟩ => ⟨S6x16x1x512x512, .i1⟩
  | .hbm, ⟨22, _⟩ => ⟨S_, .i32⟩
  | .hbm, ⟨23, _⟩ => ⟨S6x16x1x512x512, .i32⟩
  | .hbm, ⟨24, _⟩ => ⟨S6x16x1x512x512, .i32⟩
  | .hbm, ⟨25, _⟩ => ⟨S6x16x1x512x512, .i32⟩
  | .hbm, ⟨26, _⟩ => ⟨S6x16x1x512x512x1, .i32⟩
  | .hbm, ⟨27, _⟩ => ⟨S1, .i32⟩
  | .hbm, ⟨28, _⟩ => ⟨S_, .i32⟩
  | .hbm, ⟨29, _⟩ => ⟨S6x16x1x512x512x1, .i32⟩
  | .hbm, ⟨30, _⟩ => ⟨S6x16x1x512x512x1, .i1⟩
  | .hbm, ⟨31, _⟩ => ⟨S1x1x1x1x1x1, .i32⟩
  | .hbm, ⟨32, _⟩ => ⟨S6x16x1x512x512x1, .i32⟩
  | .hbm, ⟨33, _⟩ => ⟨S6x16x1x512x512x1, .i1⟩
  | .hbm, ⟨34, _⟩ => ⟨S6x16x1x512x512x1, .i1⟩
  | .hbm, ⟨35, _⟩ => ⟨S_, .i1⟩
  | .hbm, ⟨36, _⟩ => ⟨S6x16x1x512x512, .i1⟩
  | .hbm, ⟨37, _⟩ => ⟨S6x16x1x512x512, .f32⟩
  | .hbm, ⟨38, _⟩ => ⟨S_, .f32⟩
  | .hbm, ⟨39, _⟩ => ⟨S6x16x1x512x512, .f32⟩
  | .hbm, ⟨40, _⟩ => ⟨S6x16x1x512x512, .f32⟩
  | .hbm, ⟨41, _⟩ => ⟨S6x16x512x512, .f32⟩
  | .hbm, ⟨42, _⟩ => ⟨S6x16x512x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S6x16x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_cst : Ref sig .tc := ⟨.hbm, 43, rfl⟩
abbrev main_v6 : Ref sig .tc := ⟨.hbm, 44, rfl⟩
abbrev main_cst_0 : Ref sig .tc := ⟨.hbm, 45, rfl⟩
abbrev main_v7 : Ref sig .tc := ⟨.hbm, 46, rfl⟩

abbrev nD : Nat := 1
abbrev τ : Topo := Topo.v7x

variable {F : FTy → Type} [FloatOps F]

class Facts₀ : Prop where
  reducesTo_S6x16x2x512x512_S6x16x512x512_d2 : S6x16x2x512x512.ReducesTo [2] S6x16x512x512
  h_S_ : 0 < S_.numel
  bcast_S_S6x16x512x512 : S_.BroadcastsInDim S6x16x512x512 (![] : Fin 0 → Fin S6x16x512x512.rank)
  bcast_S6x16x512x512_S6x16x1x512x512_0_1_3_4 : S6x16x512x512.BroadcastsInDim S6x16x1x512x512 (![0, 1, 3, 4] : Fin 4 → Fin S6x16x1x512x512.rank)
  bcast_S6x16x1x512x512_S6x16x2x512x512_0_1_2_3_4 : S6x16x1x512x512.BroadcastsInDim S6x16x2x512x512 (![0, 1, 2, 3, 4] : Fin 5 → Fin S6x16x2x512x512.rank)
  bcast_S16x512x512_S1x16x1x512x512_1_3_4 : S16x512x512.BroadcastsInDim S1x16x1x512x512 (![1, 3, 4] : Fin 3 → Fin S1x16x1x512x512.rank)
  bcast_S1x16x1x512x512_S6x16x1x512x512_0_1_2_3_4 : S1x16x1x512x512.BroadcastsInDim S6x16x1x512x512 (![0, 1, 2, 3, 4] : Fin 5 → Fin S6x16x1x512x512.rank)
  bcast_S_S6x16x1x512x512 : S_.BroadcastsInDim S6x16x1x512x512 (![] : Fin 0 → Fin S6x16x1x512x512.rank)
  shapeCasts_S6x16x1x512x512_S6x16x1x512x512x1 : S6x16x1x512x512.ShapeCasts S6x16x1x512x512x1
  bcast_S_S6x16x1x512x512x1 : S_.BroadcastsInDim S6x16x1x512x512x1 (![] : Fin 0 → Fin S6x16x1x512x512x1.rank)
  bcast_S1_S1x1x1x1x1x1_5 : S1.BroadcastsInDim S1x1x1x1x1x1 (![5] : Fin 1 → Fin S1x1x1x1x1x1.rank)
  bcast_S1x1x1x1x1x1_S6x16x1x512x512x1_0_1_2_3_4_5 : S1x1x1x1x1x1.BroadcastsInDim S6x16x1x512x512x1 (![0, 1, 2, 3, 4, 5] : Fin 6 → Fin S6x16x1x512x512x1.rank)
  reducesTo_S6x16x1x512x512x1_S6x16x1x512x512_d5 : S6x16x1x512x512x1.ReducesTo [5] S6x16x1x512x512
  shapeCasts_S6x16x1x512x512_S6x16x512x512 : S6x16x1x512x512.ShapeCasts S6x16x512x512
  reducesTo_S6x16x512x512_S_d0_1_2_3 : S6x16x512x512.ReducesTo [0, 1, 2, 3] S_
  gather_S6x16x2x512x512_S6x16x1x512x512x1_S6x16x1x512x512_n_2_0134_0134_2_5_11111_wf : GatherDims.WF S6x16x2x512x512 S6x16x1x512x512x1 S6x16x1x512x512 [] [2] [0, 1, 3, 4] [2] [0, 1, 3, 4] 5 ![1, 1, 1, 1, 1]

variable [Facts₀]

def gather_S6x16x2x512x512_S6x16x1x512x512x1_S6x16x1x512x512_n_2_0134_0134_2_5_11111 : GatherDims S6x16x2x512x512 S6x16x1x512x512x1 S6x16x1x512x512 where
  offsetDims := []
  collapsedSliceDims := [2]
  operandBatchingDims := [0, 1, 3, 4]
  startIndicesBatchingDims := [0, 1, 3, 4]
  startIndexMap := [2]
  indexVectorDim := 5
  sliceSizes := ![1, 1, 1, 1, 1]
  wf := gather_S6x16x2x512x512_S6x16x1x512x512x1_S6x16x1x512x512_n_2_0134_0134_2_5_11111_wf

class Facts : Prop extends Facts₀ where

variable [Facts]
-- ==== Proof.KBody.lean ====
/-
  What the kernel body leaves in the output block's staging buffer at one grid point: the previous contents plus, in
  every entry, the sum of the block's per-pixel losses. At a core's first point the body first overwrites the buffer
  with zeros, so "the previous contents" are zeros there.
-/
import proofs.«425725_j7799660609794_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace XEnt.KBody

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The class-0 and class-1 slices of a logits block [1, 16, 2, 64, 512]. -/
abbrev cls0 (x0 : Vec F S1x16x2x64x512 .f32) : Vec F S1x16x1x64x512 .f32 :=
  View.ld x0 (Rect.unit ![0, 0, 0, 0, 0] S1x16x1x64x512.size Facts₀.inb_S1x16x2x64x512_S1x16x1x64x512_0_0_0_0_0)
abbrev cls1 (x0 : Vec F S1x16x2x64x512 .f32) : Vec F S1x16x1x64x512 .f32 :=
  View.ld x0 (Rect.unit ![0, 0, 1, 0, 0] S1x16x1x64x512.size Facts₀.inb_S1x16x2x64x512_S1x16x1x64x512_0_0_1_0_0)

/-- The update: the body's one arithmetic term over the two class slices, the label block and the old contents. -/
def upd (x0 : Vec F S1x16x2x64x512 .f32) (x1 : Vec F S16x64x512 .i32) (xo : Vec F S8x128 .f32) : Vec F S8x128 .f32 :=
  k0_pay2 (cls0 x0) (cls1 x0) x1 xo

/-- The zero block a core's first point stores before it accumulates. -/
abbrev zeros : Vec F S8x128 .f32 := k0_pay1 (F := F)

/-- Away from a core's first point the body leaves the update of what the buffer held. -/
theorem out_B (c : Dev nD) (i : grid0.Coords) (a3 : Memref sig .tc .vmem S1x16x2x64x512 .f32) (h3 : a3.IsWhole)
    (a4 : Memref sig .tc .vmem S16x64x512 .i32) (h4 : a4.IsWhole) (a5 : Memref sig .tc .vmem S8x128 .f32) (h5 : a5.IsWhole)
    (hc : ¬cond0_0 i) (x0 : Vec F S1x16x2x64x512 .f32) (x1 : Vec F S16x64x512 .i32) (xo : Vec F S8x128 .f32) :
    out0_B_2 c i a3 h3 a4 h4 a5 h5 hc x0 x1 xo = upd x0 x1 xo := by
  unfold out0_B_2
  rw [View.read_writes_eq_canon _ _ _ (cover0_B_2 c i a3 h3 a4 h4 a5 h5 hc x0 x1 xo)]
  unfold kernelRun0_B
  dsimp only
  sl_unfold_words
  rw [View.canon_unit_zero hz2]
  simp only [View.readAt_eq_ld, h3.read_unread, h4.read_unread, h5.read_unread, View.ld_unit_zero (S := S8x128) hz2,
    View.ld_unit_zero (S := S16x64x512) hz3]
  rfl

/-- At a core's first point the body stores zeros, reads them back, and leaves their update. -/
theorem out_A (c : Dev nD) (i : grid0.Coords) (a3 : Memref sig .tc .vmem S1x16x2x64x512 .f32) (h3 : a3.IsWhole)
    (a4 : Memref sig .tc .vmem S16x64x512 .i32) (h4 : a4.IsWhole) (a5 : Memref sig .tc .vmem S8x128 .f32) (h5 : a5.IsWhole)
    (hc : cond0_0 i) (x0 : Vec F S1x16x2x64x512 .f32) (x1 : Vec F S16x64x512 .i32) :
    out0_A_2 c i a3 h3 a4 h4 a5 h5 hc x0 x1 = upd x0 x1 zeros := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S8x128) hz2, View.readCov_unit_zero (S := S8x128) _ hz2]
  simp only [View.readAt_eq_ld, h3.read_unread, h4.read_unread, View.ld_unit_zero (S := S16x64x512) hz3]
  rfl

end XEnt.KBody

end
-- ==== Proof.Spec.lean ====
/-
  Two-class cross entropy, as one function of the argument arrays.

  For a pixel with logits `l0`, `l1` and label `t ∈ {0, 1}` the negative log-likelihood is
  `logsumexp(l0, l1) - l_t`, written here in the shifted form `max l0 l1 + log (1 + exp (-|l0 - l1|)) - l_t`.
  The loss is the mean of it over the 6 · 16 · 512 · 512 pixels.
-/
import Idealize.ShloMosaic.PureOps.Ideal
import Idealize.ShloMosaic.PureOps.Ideal.Laws
import Idealize.ShloMosaic.Lib.ValueIdx

noncomputable section

open scoped BigOperators

namespace XEnt

open Idealize.ShloMosaic Idealize.ShloMosaic.ValueIdx

/-- The logits' and the labels' shapes. -/
abbrev SL : Shape := ⟨5, ![6, 16, 2, 512, 512]⟩
abbrev ST : Shape := ⟨3, ![16, 512, 512]⟩

/-- One pixel's negative log-likelihood from its two logits and its label:
    `max l0 l1 + log (1 + exp (0 - |l0 - l1|)) - l_t`, the absolute value as `max d (-d)`. -/
def nll (l0 l1 : EReal) (t : BitVec 32) : EReal :=
  (max l0 l1 + Ideal.log1p (Ideal.exp (0 - max (l0 - l1) (-(l0 - l1))))) - (if t = 0#32 then l0 else l1)

/-- The pixel `(j, b, h, w)`: its two logits are the two class entries, its label does not depend on `j`. -/
def pix (x : SL.Idx → EReal) (tg : ST.Idx → BitVec 32) (j : Fin 6) (b : Fin 16) (h : Fin 512) (w : Fin 512) : EReal :=
  nll (x (ix5 j b (0 : Fin 2) h w)) (x (ix5 j b (1 : Fin 2) h w)) (tg (ix3 b h w))

/-- The sum of all pixels' negative log-likelihoods. -/
def total (x : SL.Idx → EReal) (tg : ST.Idx → BitVec 32) : EReal :=
  ∑ j : Fin 6, ∑ b : Fin 16, ∑ h : Fin 512, ∑ w : Fin 512, pix x tg j b h w

/-- The part of the sum formed at grid point `n` of the kernel's 48 (in launch order): block `n / 8` of the leading
    axis, all 16 examples, the 64 rows from `64 (n % 8)`, all 512 columns; zero past the grid. -/
def blockSum (x : SL.Idx → EReal) (tg : ST.Idx → BitVec 32) (n : ℕ) : EReal :=
  if h : n < 48 then
    ∑ b : Fin 16, ∑ r : Fin 64, ∑ w : Fin 512,
      pix x tg ⟨n / 8, by omega⟩ b ⟨64 * (n % 8) + r.val, by have := r.isLt; omega⟩ w
  else 0

/-- The mean: the sum divided by the pixel count 6 · 16 · 512 · 512 = 25165824 (the word `0x4BC00000`). -/
def mean (x : SL.Idx → EReal) (tg : ST.Idx → BitVec 32) : EReal :=
  Ideal.div (total x tg) (Ideal.ofBits .f32 0x4BC00000#32)

end XEnt

end
-- ==== Proof.KPayload.lean ====
/-
  The kernel body's arithmetic read at an index.

  One grid point's payload adds to every entry of the running [8, 128] accumulator the sum, over the block's 16
  examples, 64 rows and 512 columns, of the pixel's negative log-likelihood: the pointwise arithmetic is `nll`, and
  the three lane sums over the axes 2, 1, 0 (with unit axes put back between them) are one triple sum.
-/
import proofs.«425725_j7799660609794_1_alg».proof.Proof.Gen.KernelIdeal.Skeleton
import proofs.«425725_j7799660609794_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace XEnt.KPayload

open Cert.KernelIdeal Cert.KernelIdeal.Gen Idealize.ShloMosaic Idealize.ShloMosaic.ValueIdx

/-! ## Shape casts that add or drop unit axes, read at coordinates -/

/-- An `[a, b]` array cast to `[a, b, 1]` reads, at `(i, j, u)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A `[1, a, 1, b, c]` array cast to `[a, b, c]` reads, at `(i, j, k)`, the operand at `(0, i, 0, j, k)`. -/
theorem shapeCast_1a1bc_abc_apply {α : Type} {a b c : ℕ} (x : (⟨5, ![1, a, 1, b, c]⟩ : Shape).Idx → α)
    (h : (⟨5, ![1, a, 1, b, c]⟩ : Shape).ShapeCasts ⟨3, ![a, b, c]⟩) (i : Fin a) (j : Fin b) (k : Fin c) :
    shapeCast ⟨3, ![a, b, c]⟩ x h (ix3 i j k) = x (ix5 (0 : Fin 1) i (0 : Fin 1) j k) :=
  shapeCast_apply x h _ _ (by
    rw [Shape.rowMajor_val_five, Shape.rowMajor_val_three]
    show (((0 * a + i.val) * 1 + 0) * b + j.val) * c + k.val = (i.val * b + j.val) * c + k.val
    simp only [Nat.zero_mul, Nat.zero_add, Nat.mul_one, Nat.add_zero])

/-! ## The three lane sums, each over one axis -/

/-- The sum over the columns: axis 2 of `[16, 64, 512]`. -/
theorem sum_cols (src : FVec Ideal S16x64x512 .f32) (h : S16x64x512.Reduces [2] S16x64) (hφ : FKind.Formats .f32)
    (hacc : (0x00000000#32 : BitVec 32) = FKind.add.neutral .f32 hφ) (b : Fin 16) (r : Fin 64) :
    multiReduction .add [2] S16x64 src 0x00000000#32 h hφ hacc (ix2 b r) = ∑ w : Fin 512, src (ix3 b r w) := by
  refine (Ideal.multiReduction_add_single src _ h hφ hacc (ix2 b r)).trans ?_
  refine Finset.sum_congr rfl fun w _ => congrArg src ?_
  funext a
  match a with
  | ⟨0, _⟩ => exact Fin.ext rfl
  | ⟨1, _⟩ => exact Fin.ext rfl
  | ⟨2, _⟩ => exact Fin.ext rfl

/-- The sum over the rows: axis 1 of `[16, 64, 1]`. -/
theorem sum_rows (src : FVec Ideal S16x64x1 .f32) (h : S16x64x1.Reduces [1] S16x1) (hφ : FKind.Formats .f32)
    (hacc : (0x00000000#32 : BitVec 32) = FKind.add.neutral .f32 hφ) (b : Fin 16) (u : Fin 1) :
    multiReduction .add [1] S16x1 src 0x00000000#32 h hφ hacc (ix2 b u) = ∑ r : Fin 64, src (ix3 b r u) := by
  refine (Ideal.multiReduction_add_single src _ h hφ hacc (ix2 b u)).trans ?_
  refine Finset.sum_congr rfl fun r _ => congrArg src ?_
  funext a
  match a with
  | ⟨0, _⟩ => exact Fin.ext rfl
  | ⟨1, _⟩ => exact Fin.ext rfl
  | ⟨2, _⟩ => exact Fin.ext rfl

/-- The sum over the examples: axis 0 of `[16, 1, 1]`. -/
theorem sum_batch (src : FVec Ideal S16x1x1 .f32) (h : S16x1x1.Reduces [0] S1x1) (hφ : FKind.Formats .f32)
    (hacc : (0x00000000#32 : BitVec 32) = FKind.add.neutral .f32 hφ) (u v : Fin 1) :
    multiReduction .add [0] S1x1 src 0x00000000#32 h hφ hacc (ix2 u v) = ∑ b : Fin 16, src (ix3 b u v) := by
  refine (Ideal.multiReduction_add_single src _ h hφ hacc (ix2 u v)).trans ?_
  refine Finset.sum_congr rfl fun b _ => congrArg src ?_
  funext a
  match a with
  | ⟨0, _⟩ => exact Fin.ext rfl
  | ⟨1, _⟩ => exact Fin.ext rfl
  | ⟨2, _⟩ => exact Fin.ext rfl

/-! ## The entry a `vector.extract` at `[0, 0]` reads -/

theorem extractAt_zero_zero {α : Type} (x : S1x1.Idx → α) (h : ∀ a, (![0, 0] : Fin 2 → ℕ) a < S1x1.size a) :
    extractAt ![0, 0] x h = x (ix2 (0 : Fin 1) (0 : Fin 1)) := by
  unfold extractAt
  refine congrArg x ?_
  funext a
  match a with
  | ⟨0, _⟩ => exact Fin.ext rfl
  | ⟨1, _⟩ => exact Fin.ext rfl

/-! ## The pointwise arithmetic -/

/-- A select on "the label is the word `c`" is the `if` on that equation. -/
theorem select_cmpi_eq {α : Type} (t c : BitVec 32) (a b : α) :
    Scalar.select (IntOp.cmpi .eq t c) a b = if t = c then a else b := by
  by_cases h : t = c
  · subst h; simp [Scalar.select, IntOp.cmpi]
  · have hb : (t == c) = false := beq_eq_false_iff_ne.2 h
    simp [Scalar.select, IntOp.cmpi, hb, h]

/-- The block's pointwise arithmetic at `(b, r, w)` is the pixel's negative log-likelihood from the two class
    slices at `(0, b, 0, r, w)` and the label at `(b, r, w)`. -/
theorem nll_at (v5 v7 : Vec Ideal S1x16x1x64x512 .f32) (v9 : Vec Ideal S16x64x512 .i32)
    (h : S1x16x1x64x512.ShapeCasts S16x64x512) (b : Fin 16) (r : Fin 64) (w : Fin 512) :
    (subf
        (addf (maximumf (shapeCast S16x64x512 v5 h) (shapeCast S16x64x512 v7 h))
          (log1p (exp (subf (broadcast S16x64x512 (FloatOps.ofBits (F := Ideal) FTy.f32 0x00000000#32))
            (absf (subf (shapeCast S16x64x512 v5 h) (shapeCast S16x64x512 v7 h)))))))
        (select (cmpi CmpIPredicate.eq v9 (broadcast S16x64x512 0#32))
          (shapeCast S16x64x512 v5 h) (shapeCast S16x64x512 v7 h)) : FVec Ideal S16x64x512 .f32) (ix3 b r w)
      = XEnt.nll (v5 (ix5 (0 : Fin 1) b (0 : Fin 1) r w)) (v7 (ix5 (0 : Fin 1) b (0 : Fin 1) r w)) (v9 (ix3 b r w)) := by
  show (max (shapeCast S16x64x512 v5 h (ix3 b r w)) (shapeCast S16x64x512 v7 h (ix3 b r w))
        + Ideal.log1p (Ideal.exp (Ideal.ofBits FTy.f32 0x00000000#32
            - max (shapeCast S16x64x512 v5 h (ix3 b r w) - shapeCast S16x64x512 v7 h (ix3 b r w))
                (-(shapeCast S16x64x512 v5 h (ix3 b r w) - shapeCast S16x64x512 v7 h (ix3 b r w))))))
      - Scalar.select (IntOp.cmpi CmpIPredicate.eq (v9 (ix3 b r w)) 0#32)
          (shapeCast S16x64x512 v5 h (ix3 b r w)) (shapeCast S16x64x512 v7 h (ix3 b r w)) = _
  rw [shapeCast_1a1bc_abc_apply v5 h b r w, shapeCast_1a1bc_abc_apply v7 h b r w, Ideal.ofBits_zero_f32,
    select_cmpi_eq]
  rfl

/-! ## The payload -/

theorem pay2_apply (v5 v7 : Vec Ideal S1x16x1x64x512 .f32) (v9 : Vec Ideal S16x64x512 .i32) (v28 : Vec Ideal S8x128 .f32)
    (y : S8x128.Idx) :
    k0_pay2 (F := Ideal) v5 v7 v9 v28 y
      = v28 y + ∑ b : Fin 16, ∑ r : Fin 64, ∑ w : Fin 512,
          XEnt.nll (v5 (ix5 (0 : Fin 1) b (0 : Fin 1) r w)) (v7 (ix5 (0 : Fin 1) b (0 : Fin 1) r w)) (v9 (ix3 b r w)) := by
  unfold k0_pay2
  refine (addf_apply _ _ y).trans ?_
  refine congrArg₂ (· + ·) (congrFun (shapeCast_self v28 _) y) ?_
  -- the broadcast scalar: the entry `(0, 0)` of the last lane sum
  refine (extractAt_zero_zero _ _).trans ?_
  -- the examples
  refine (sum_batch _ _ _ _ 0 0).trans ?_
  refine Finset.sum_congr rfl fun b _ => ?_
  refine (shapeCast_ab_ab1_apply _ _ b 0 0).trans ?_
  -- the rows
  refine (sum_rows _ _ _ _ b 0).trans ?_
  refine Finset.sum_congr rfl fun r _ => ?_
  refine (shapeCast_ab_ab1_apply _ _ b r 0).trans ?_
  -- the columns
  refine (sum_cols _ _ _ _ b r).trans ?_
  refine Finset.sum_congr rfl fun w _ => ?_
  exact nll_at v5 v7 v9 _ b r w

end XEnt.KPayload

end
-- ==== Proof.KBlocks.lean ====
/-
  Where the kernel's input blocks lie in the argument arrays. At grid point `t` of the 48 the logits window holds the
  block with index `t / 8` on the leading axis and `t % 8` on the row axis (64 rows each); the labels window holds the
  block with index `t % 8` on its row axis. A block entry is the array entry at index × block size + the coordinate
  inside the block, axis by axis.
-/
import proofs.«425725_j7799660609794_1_alg».proof.Proof.KBody
import Idealize.ShloMosaic.Lib.ValueIdx
import Idealize.ShloMosaic.Lib.Pipeline.Value

noncomputable section

namespace XEnt.KBlocks

open Cert.KernelIdeal Cert.KernelIdeal.Gen XEnt.KBody Idealize.ShloMosaic Idealize.ShloMosaic.TcCoe Idealize.ShloMosaic.ValueIdx

variable {F : FTy → Type} [FloatOps F] (m : (ℓ : Loc nD τ sig) → Buf (Elt F) ℓ)

/-- The logits window's block index at every point of the grid, axis by axis. -/
theorem idx0 : ∀ t : Fin cfg0.N, win0_0.index t 0 = t.val / 8 ∧ win0_0.index t 1 = 0 ∧ win0_0.index t 2 = 0
    ∧ win0_0.index t 3 = t.val % 8 ∧ win0_0.index t 4 = 0 :=
  (by decide +kernel : ∀ t : Fin grid0.N, win0_0.index t 0 = t.val / 8 ∧ win0_0.index t 1 = 0 ∧ win0_0.index t 2 = 0
    ∧ win0_0.index t 3 = t.val % 8 ∧ win0_0.index t 4 = 0)

/-- The labels window's block index at every point of the grid. -/
theorem idx1 : ∀ t : Fin cfg0.N, win0_1.index t 0 = 0 ∧ win0_1.index t 1 = t.val % 8 ∧ win0_1.index t 2 = 0 :=
  (by decide +kernel : ∀ t : Fin grid0.N, win0_1.index t 0 = 0 ∧ win0_1.index t 1 = t.val % 8 ∧ win0_1.index t 2 = 0)

/-- The labels block at point `t`, entry by entry, in the labels array. -/
theorem iblk1_apply (c : Dev nD) (t : Fin cfg0.N) (b : Fin 16) (r : Fin 64) (w : Fin 512) :
    (iblk m c 1 t : Vec F S16x64x512 .i32) (ix3 b r w)
      = m ((c : Thread nD τ).loc main_arg1)
          (ix3 b (⟨64 * (t.val % 8) + r.val, by have := r.isLt; omega⟩ : Fin 512) w) := by
  have hi := idx1 t
  unfold iblk
  rw [View.read_apply]
  show V m c main_arg1 _ = m (c.tc.loc main_arg1) _
  unfold V
  congr 1
  funext a
  apply Fin.ext
  match a with
  | ⟨0, _⟩ => show win0_1.index t 0 * 16 + 1 * b.val = b.val; rw [hi.1]; omega
  | ⟨1, _⟩ => show win0_1.index t 1 * 64 + 1 * r.val = 64 * (t.val % 8) + r.val; rw [hi.2.1]; omega
  | ⟨2, _⟩ => show win0_1.index t 2 * 512 + 1 * w.val = w.val; rw [hi.2.2]; omega

/-- The class-0 slice of the logits block at point `t`, entry by entry, in the logits array. -/
theorem cls0_iblk0 (c : Dev nD) (t : Fin cfg0.N) (b : Fin 16) (r : Fin 64) (w : Fin 512) :
    cls0 (iblk m c 0 t) (ix5 (0 : Fin 1) b (0 : Fin 1) r w)
      = m ((c : Thread nD τ).loc main_arg0)
          (ix5 (⟨t.val / 8, by have := t.isLt; have hN : cfg0.N = 48 := N_0; omega⟩ : Fin 6) b (0 : Fin 2)
            (⟨64 * (t.val % 8) + r.val, by have := r.isLt; omega⟩ : Fin 512) w) := by
  have hi := idx0 t
  unfold iblk
  show View.read _ _ _ _ = _
  rw [View.read_apply]
  show V m c main_arg0 _ = m (c.tc.loc main_arg0) _
  unfold V
  congr 1
  funext a
  apply Fin.ext
  match a with
  | ⟨0, _⟩ => show win0_0.index t 0 * 1 + 1 * (0 + 1 * (0 : Fin 1).val) = t.val / 8; rw [hi.1]; simp
  | ⟨1, _⟩ => show win0_0.index t 1 * 16 + 1 * (0 + 1 * b.val) = b.val; rw [hi.2.1]; omega
  | ⟨2, _⟩ => show win0_0.index t 2 * 2 + 1 * (0 + 1 * (0 : Fin 1).val) = 0; rw [hi.2.2.1]; simp
  | ⟨3, _⟩ => show win0_0.index t 3 * 64 + 1 * (0 + 1 * r.val) = 64 * (t.val % 8) + r.val; rw [hi.2.2.2.1]; omega
  | ⟨4, _⟩ => show win0_0.index t 4 * 512 + 1 * (0 + 1 * w.val) = w.val; rw [hi.2.2.2.2]; omega

/-- The class-1 slice of the logits block at point `t`, entry by entry, in the logits array. -/
theorem cls1_iblk0 (c : Dev nD) (t : Fin cfg0.N) (b : Fin 16) (r : Fin 64) (w : Fin 512) :
    cls1 (iblk m c 0 t) (ix5 (0 : Fin 1) b (0 : Fin 1) r w)
      = m ((c : Thread nD τ).loc main_arg0)
          (ix5 (⟨t.val / 8, by have := t.isLt; have hN : cfg0.N = 48 := N_0; omega⟩ : Fin 6) b (1 : Fin 2)
            (⟨64 * (t.val % 8) + r.val, by have := r.isLt; omega⟩ : Fin 512) w) := by
  have hi := idx0 t
  unfold iblk
  show View.read _ _ _ _ = _
  rw [View.read_apply]
  show V m c main_arg0 _ = m (c.tc.loc main_arg0) _
  unfold V
  congr 1
  funext a
  apply Fin.ext
  match a with
  | ⟨0, _⟩ => show win0_0.index t 0 * 1 + 1 * (0 + 1 * (0 : Fin 1).val) = t.val / 8; rw [hi.1]; simp
  | ⟨1, _⟩ => show win0_0.index t 1 * 16 + 1 * (0 + 1 * b.val) = b.val; rw [hi.2.1]; omega
  | ⟨2, _⟩ => show win0_0.index t 2 * 2 + 1 * (1 + 1 * (0 : Fin 1).val) = 1; rw [hi.2.2.1]; simp
  | ⟨3, _⟩ => show win0_0.index t 3 * 64 + 1 * (0 + 1 * r.val) = 64 * (t.val % 8) + r.val; rw [hi.2.2.2.1]; omega
  | ⟨4, _⟩ => show win0_0.index t 4 * 512 + 1 * (0 + 1 * w.val) = w.val; rw [hi.2.2.2.2]; omega

/-- Both class slices at once: class `k`'s slice of the block is class `k`'s plane of the array. -/
theorem cls_iblk0 (c : Dev nD) (t : Fin cfg0.N) (k : Fin 2) (b : Fin 16) (r : Fin 64) (w : Fin 512) :
    (if k = 0 then cls0 (iblk m c 0 t) else cls1 (iblk m c 0 t)) (ix5 (0 : Fin 1) b (0 : Fin 1) r w)
      = m ((c : Thread nD τ).loc main_arg0)
          (ix5 (⟨t.val / 8, by have := t.isLt; have hN : cfg0.N = 48 := N_0; omega⟩ : Fin 6) b k
            (⟨64 * (t.val % 8) + r.val, by have := r.isLt; omega⟩ : Fin 512) w) := by
  match k with
  | 0 => rw [if_pos rfl]; exact cls0_iblk0 m c t b r w
  | 1 => rw [if_neg (by decide)]; exact cls1_iblk0 m c t b r w

end XEnt.KBlocks

end
-- ==== Proof.Regroup.lean ====
/-
  Regrouping the sum of all pixels by the 48 grid points.

  The six blocks `j` and the 512 rows `h` are re-indexed as `j = n / 8` and `h = 64 * (n % 8) + r` with
  `n < 48`, `r < 64`: the pair `(j, k)` with `k < 8` is the number `n = 8 * j + k`, and the pair `(k, r)` is the
  row `64 * k + r`. Addition is commutative and associative, so the sum over `(j, b, h, w)` is the sum over
  `(n, b, r, w)`; the 48 grid points are then cut into the first 24 and the last 24.
-/
import Mathlib.Algebra.BigOperators.Fin
import Mathlib.Algebra.BigOperators.Group.Finset.Basic
import Mathlib.Data.Fintype.BigOperators
import Mathlib.Logic.Equiv.Fin.Basic
import proofs.«425725_j7799660609794_1_alg».proof.Proof.Spec

noncomputable section

open scoped BigOperators

namespace XEnt

open Idealize.ShloMosaic Idealize.ShloMosaic.ValueIdx

/-- A sum over `Fin (m * n)` is the double sum over the quotient `i < m` and the remainder `k < n`
    of the index `n * i + k`. -/
theorem sum_fin_mul {M : Type*} [AddCommMonoid M] (m n N : ℕ) (hN : N = m * n) (g : ℕ → M) :
    ∑ t : Fin N, g t.val = ∑ i : Fin m, ∑ k : Fin n, g (k.val + n * i.val) := by
  subst hN
  rw [← (finProdFinEquiv : Fin m × Fin n ≃ Fin (m * n)).sum_comp, Fintype.sum_prod_type]
  rfl

/-- The regrouping for any summand with values in an additive commutative monoid. -/
theorem sum_regroup {M : Type*} [AddCommMonoid M] (f : Fin 6 → Fin 16 → Fin 512 → Fin 512 → M) :
    ∑ j : Fin 6, ∑ b : Fin 16, ∑ h : Fin 512, ∑ w : Fin 512, f j b h w
      = ∑ n ∈ Finset.range 48,
          (if hn : n < 48 then
            ∑ b : Fin 16, ∑ r : Fin 64, ∑ w : Fin 512,
              f ⟨n / 8, by omega⟩ b ⟨64 * (n % 8) + r.val, by have := r.isLt; omega⟩ w
          else 0) := by
  -- the right side as a double sum over the block `j` and the eighth `k` of the rows
  rw [Finset.sum_range]
  refine Eq.trans ?_ (sum_fin_mul 6 8 48 rfl (fun n =>
      if hn : n < 48 then
        ∑ b : Fin 16, ∑ r : Fin 64, ∑ w : Fin 512,
          f ⟨n / 8, by omega⟩ b ⟨64 * (n % 8) + r.val, by have := r.isLt; omega⟩ w
      else 0)).symm
  refine Finset.sum_congr rfl fun j _ => ?_
  -- the rows of the left side as a double sum over the eighth `k` and the row `r` inside it
  have hrows : ∀ b : Fin 16, ∑ h : Fin 512, ∑ w : Fin 512, f j b h w
      = ∑ k : Fin 8, ∑ r : Fin 64, ∑ w : Fin 512,
          f j b ⟨64 * k.val + r.val, by have := r.isLt; have := k.isLt; omega⟩ w := by
    intro b
    have h8 := sum_fin_mul (M := M) 8 64 512 rfl (fun h =>
      if hh : h < 512 then ∑ w : Fin 512, f j b ⟨h, hh⟩ w else 0)
    have hl : ∑ h : Fin 512, ∑ w : Fin 512, f j b h w
        = ∑ t : Fin 512, (if hh : t.val < 512 then ∑ w : Fin 512, f j b ⟨t.val, hh⟩ w else 0) := by
      refine Finset.sum_congr rfl fun t _ => ?_
      rw [dif_pos t.isLt]
    rw [hl, h8]
    refine Finset.sum_congr rfl fun k _ => Finset.sum_congr rfl fun r _ => ?_
    have hlt : r.val + 64 * k.val < 512 := by have := r.isLt; have := k.isLt; omega
    rw [dif_pos hlt]
    refine Finset.sum_congr rfl fun w _ => ?_
    congr 2
    omega
  rw [Finset.sum_congr rfl fun b _ => hrows b, Finset.sum_comm]
  refine Finset.sum_congr rfl fun k _ => ?_
  have hlt : k.val + 8 * j.val < 48 := by have := j.isLt; have := k.isLt; omega
  rw [dif_pos hlt]
  refine Finset.sum_congr rfl fun b _ => Finset.sum_congr rfl fun r _ =>
    Finset.sum_congr rfl fun w _ => ?_
  have hj : (k.val + 8 * j.val) / 8 = j.val := by have := k.isLt; omega
  have hk : (k.val + 8 * j.val) % 8 = k.val := by have := k.isLt; omega
  congr 1
  · congr 1
    exact Fin.ext hj.symm
  · exact Fin.ext (by simp only [hk])

/-- The sum of all pixels is the sum of the 48 grid points' parts, the first 24 and the last 24. -/
theorem total_eq_blockSums (x : SL.Idx → EReal) (tg : ST.Idx → BitVec 32) :
    total x tg = (∑ n ∈ Finset.range 24, blockSum x tg n)
      + (∑ n ∈ Finset.range 24, blockSum x tg (24 + n)) := by
  rw [← Finset.sum_range_add (fun n => blockSum x tg n) 24 24]
  exact sum_regroup (fun j b h w => pix x tg j b h w)

end XEnt

end
-- ==== Proof.KValue.lean ====
/-
  The kernel's value at the ideal instance.

  At grid point `n` the body adds the point's part of the sum, `blockSum x tg n`, to every entry of the output block's
  staging buffer, which a core's first point (`n % 24 = 0`) has reset to zero. So after point `n` every entry of the
  buffer is the sum of the parts from the core's first point to `n`; the buffer is written back after the core's last
  point (`n % 24 = 23`), when it holds the sum of the core's 24 parts. The lines after the region add row 0's and row
  8's first entries (the two cores' sums) and divide by the pixel count: the mean.
-/
import proofs.«425725_j7799660609794_1_alg».proof.Proof.KBody
import proofs.«425725_j7799660609794_1_alg».proof.Proof.KPayload
import proofs.«425725_j7799660609794_1_alg».proof.Proof.KBlocks
import proofs.«425725_j7799660609794_1_alg».proof.Proof.Regroup
import proofs.«425725_j7799660609794_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open scoped BigOperators

namespace XEnt.KValue

open Cert.KernelIdeal Cert.KernelIdeal.Gen Idealize.ShloMosaic.ValueIdx

variable (m : (ℓ : Loc nD τ sig) → Buf (Elt Ideal) ℓ) (ρ : Dev nD → PrngReg)

/-- The logits and the labels as the region finds them. -/
abbrev xarr (c : Dev nD) : SL.Idx → EReal := m ((c : Thread nD τ).loc main_arg0)
abbrev tarr (c : Dev nD) : ST.Idx → BitVec 32 := m ((c : Thread nD τ).loc main_arg1)

/-- The logits block and the label block of grid point `t`. -/
abbrev lblk (c : Dev nD) (t : Fin cfg0.N) : Vec Ideal S1x16x2x64x512 .f32 := iblk m c 0 t
abbrev tblk (c : Dev nD) (t : Fin cfg0.N) : Vec Ideal S16x64x512 .i32 := iblk m c 1 t

theorem N48 : cfg0.N = 48 := N_0

/-- The block of the leading axis and the row that grid point `t` and the row `r` of its block stand for. -/
abbrev blkJ (t : Fin cfg0.N) : Fin 6 := ⟨t.val / 8, by have := lt_of_lt_of_eq t.isLt N48; omega⟩
abbrev rowH (t : Fin cfg0.N) (r : Fin 64) : Fin 512 := ⟨64 * (t.val % 8) + r.val, by have := r.isLt; omega⟩

/-! ## One point's update -/

/-- The update at point `t` adds the point's part of the sum to every entry. -/
theorem upd_blocks (c : Dev nD) (t : Fin cfg0.N) (xo : Vec Ideal S8x128 .f32) :
    KBody.upd (lblk m c t) (tblk m c t) xo = fun y => xo y + XEnt.blockSum (xarr m c) (tarr m c) t.val := by
  funext y
  unfold KBody.upd
  refine (KPayload.pay2_apply (KBody.cls0 (lblk m c t)) (KBody.cls1 (lblk m c t)) (tblk m c t) xo y).trans ?_
  refine congrArg (fun s => xo y + s) ?_
  unfold XEnt.blockSum
  rw [dif_pos (show t.val < 48 from lt_of_lt_of_eq t.isLt N48)]
  refine Finset.sum_congr rfl fun b _ => Finset.sum_congr rfl fun r _ => Finset.sum_congr rfl fun w _ => ?_
  have e0 : KBody.cls0 (lblk m c t) (ix5 (0 : Fin 1) b (0 : Fin 1) r w)
      = xarr m c (ix5 (blkJ t) b (0 : Fin 2) (rowH t r) w) := KBlocks.cls0_iblk0 m c t b r w
  have e1 : KBody.cls1 (lblk m c t) (ix5 (0 : Fin 1) b (0 : Fin 1) r w)
      = xarr m c (ix5 (blkJ t) b (1 : Fin 2) (rowH t r) w) := KBlocks.cls1_iblk0 m c t b r w
  have e2 : tblk m c t (ix3 b r w) = tarr m c (ix3 b (rowH t r) w) := KBlocks.iblk1_apply m c t b r w
  rw [e0, e1, e2]
  rfl

/-! ## The staging buffer after each point -/

/-- The zero block a core's first point stores is zero. -/
theorem zeros_apply (y : S8x128.Idx) : (KBody.zeros (F := Ideal)) y = 0 := by
  show Ideal.ofBits .f32 0x00000000#32 = 0
  exact Ideal.ofBits_zero_f32

/-- The sum of the parts from the core's first point to point `n`. -/
def acc (c : Dev nD) (n : ℕ) : Vec Ideal S8x128 .f32 :=
  fun _ => ∑ k ∈ Finset.range (n % 24 + 1), XEnt.blockSum (xarr m c) (tarr m c) (24 * (n / 24) + k)

/-- After point `n` every entry of the output block's staging buffer is that sum. -/
theorem outs_eq (c : Dev nD) : ∀ (n : ℕ) (h : n < cfg0.N), outsAt0 m c n h = acc m c n := by
  intro n
  induction n with
  | zero =>
    intro h
    refine (outsAt0_A m c ⟨0, h⟩ rfl).trans ?_
    refine (KBody.out_A (F := Ideal) c _ _ _ _ _ _ _ _ (lblk m c ⟨0, h⟩) (tblk m c ⟨0, h⟩)).trans ?_
    refine (upd_blocks m c ⟨0, h⟩ KBody.zeros).trans ?_
    funext y
    show KBody.zeros y + XEnt.blockSum (xarr m c) (tarr m c) 0 = ∑ k ∈ Finset.range 1, _
    rw [zeros_apply, zero_add, Finset.sum_range_one]
  | succ k ih =>
    intro h
    by_cases h0 : (k + 1) % 24 = 0
    · refine (outsAt0_A m c ⟨k + 1, h⟩ h0).trans ?_
      refine (KBody.out_A (F := Ideal) c _ _ _ _ _ _ _ _ (lblk m c ⟨k + 1, h⟩) (tblk m c ⟨k + 1, h⟩)).trans ?_
      refine (upd_blocks m c ⟨k + 1, h⟩ KBody.zeros).trans ?_
      funext y
      show KBody.zeros y + XEnt.blockSum (xarr m c) (tarr m c) (k + 1)
        = ∑ j ∈ Finset.range ((k + 1) % 24 + 1), XEnt.blockSum (xarr m c) (tarr m c) (24 * ((k + 1) / 24) + j)
      rw [zeros_apply, zero_add, h0, Finset.sum_range_one]
      congr 1
      omega
    · refine (outsAt0_B m c ⟨k + 1, h⟩ h0).trans ?_
      refine (KBody.out_B (F := Ideal) c _ _ _ _ _ _ _ _ (lblk m c ⟨k + 1, h⟩) (tblk m c ⟨k + 1, h⟩) _).trans ?_
      show KBody.upd (lblk m c ⟨k + 1, h⟩) (tblk m c ⟨k + 1, h⟩) (outsAt0 m c k (Nat.lt_of_succ_lt h)) = _
      rw [ih (Nat.lt_of_succ_lt h)]
      refine (upd_blocks m c ⟨k + 1, h⟩ (acc m c k)).trans ?_
      funext y
      show (∑ j ∈ Finset.range (k % 24 + 1), XEnt.blockSum (xarr m c) (tarr m c) (24 * (k / 24) + j))
          + XEnt.blockSum (xarr m c) (tarr m c) (k + 1)
        = ∑ j ∈ Finset.range ((k + 1) % 24 + 1), XEnt.blockSum (xarr m c) (tarr m c) (24 * ((k + 1) / 24) + j)
      have hq : (k + 1) / 24 = k / 24 := by omega
      have hr : (k + 1) % 24 = k % 24 + 1 := by omega
      rw [hq, hr, Finset.sum_range_succ (fun j => XEnt.blockSum (xarr m c) (tarr m c) (24 * (k / 24) + j)) (k % 24 + 1)]
      congr 2
      omega

/-! ## The output array after the region -/

/-- What the output array ends holding: in row `i`, every entry is the sum of the 24 parts of the core `i / 8`. -/
abbrev Gout (c : Dev nD) : S16x128.Idx → EReal :=
  fun i => ∑ k ∈ Finset.range 24, XEnt.blockSum (xarr m c) (tarr m c) (24 * ((i 0).val / 8) + k)

/-- The output window's block index at point `t`: the core's number, and 0. -/
theorem idx2 : ∀ t : Fin cfg0.N, win0_2.index t (0 : Fin 2) = t.val / 24 ∧ win0_2.index t (1 : Fin 2) = 0 :=
  (by decide +kernel : ∀ t : Fin grid0.N, win0_2.index t (0 : Fin 2) = t.val / 24 ∧ win0_2.index t (1 : Fin 2) = 0)

/-- What a core's last point writes back is its block of `Gout`. -/
theorem flushed_eq (c : Dev nD) (t : Fin cfg0.N) (hf : (cfg0.win 2).flush t = true) :
    (dats m 0 c).flushed 2 t = ((cfg0.win 2).blk t).view.read (Elt Ideal) (Gout m c) := by
  have h23 : t.val % 24 = 23 := (flush0_2 t).mp hf
  show (cfg0.win 2).cut (grid0.coords t) ((dats m 0 c).after 2 t) = _
  rw [after0_2, outs_eq]
  obtain ⟨e0, e1⟩ := idx2 t
  funext j
  have hj : (j 0).val < 8 := (j 0).isLt
  show (∑ k ∈ Finset.range (t.val % 24 + 1), XEnt.blockSum (xarr m c) (tarr m c) (24 * (t.val / 24) + k))
    = ∑ k ∈ Finset.range 24, XEnt.blockSum (xarr m c) (tarr m c)
        (24 * ((win0_2.index t (0 : Fin 2) * 8 + 1 * (j 0).val) / 8) + k)
  have hq : (win0_2.index t (0 : Fin 2) * 8 + 1 * (j 0).val) / 8 = t.val / 24 := by rw [e0]; omega
  rw [hq, h23]

/-- An index of the output array is in point `t`'s block iff each coordinate is in the block's range on its axis. -/
theorem mem_blk2 (t : Fin cfg0.N) (i : S16x128.Idx) :
    i ∈ ((cfg0.win 2).blk t).view.set
      ↔ ∀ a : Fin 2, win0_2.index t a * S8x128.size a ≤ (i a).val
          ∧ (i a).val < win0_2.index t a * S8x128.size a + S8x128.size a := by
  show i ∈ ((View.whole main_v0).slice (win0_2.rect t)).set ↔ _
  rw [View.set_slice_whole, Rect.mem_set_unit]
  exact Iff.rfl

/-- The output array after the region: row `i` holds the sum of the core `i / 8`'s 24 parts. -/
theorem final2 (c : Dev nD) : (dats m 0 c).arrAt 2 cfg0.N = Gout m c :=
  (dats m 0 c).arrAt_eq_of_cover 2 (Gout m c) (flushed_eq m c) fun i => by
    have hi0 : (i 0).val < 16 := (i 0).isLt
    have hi1 : (i 1).val < 128 := (i 1).isLt
    obtain ⟨t, htv⟩ : ∃ t : Fin cfg0.N, t.val = 24 * ((i 0).val / 8) + 23 :=
      ⟨⟨24 * ((i 0).val / 8) + 23, Nat.lt_of_lt_of_eq (by omega) N48.symm⟩, rfl⟩
    obtain ⟨e0, e1⟩ := idx2 t
    refine ⟨t, (flush0_2 t).mpr (by omega), ?_⟩
    rw [mem_blk2]
    intro a
    match a with
    | ⟨0, _⟩ =>
      show win0_2.index t (0 : Fin 2) * 8 ≤ (i 0).val ∧ (i 0).val < win0_2.index t (0 : Fin 2) * 8 + 8
      omega
    | ⟨1, _⟩ =>
      show win0_2.index t (1 : Fin 2) * 128 ≤ (i 1).val ∧ (i 1).val < win0_2.index t (1 : Fin 2) * 128 + 128
      omega

/-! ## The lines after the region, and the run -/

/-- The first entry of row `o` of a [16, 128] array, taken as the host takes it: the [1, 1] slice at `(o, 0)`
    reshaped to a scalar. -/
theorem slice_entry (X : S16x128.Idx → EReal) (o : ℕ) (ho : o < 16) (h : S16x128.Slices ![o, 0] S1x1)
    (hc : S1x1.ShapeCasts S_) (j : S_.Idx) :
    shapeCast S_ (extractStridedSlice S1x1 ![o, 0] X h) hc j = X (ix2 (⟨o, ho⟩ : Fin 16) (⟨0, by omega⟩ : Fin 128)) := by
  unfold shapeCast extractStridedSlice
  refine congrArg X ?_
  funext a
  apply Fin.ext
  match a with
  | ⟨0, hh⟩ =>
    have hlt : (Shape.reshapeEquiv hc j (Fin.cast h.1.symm ⟨0, hh⟩)).val < 1 :=
      (Shape.reshapeEquiv hc j (Fin.cast h.1.symm ⟨0, hh⟩)).isLt
    show o + (Shape.reshapeEquiv hc j (Fin.cast h.1.symm ⟨0, hh⟩)).val = o
    omega
  | ⟨1, hh⟩ =>
    have hlt : (Shape.reshapeEquiv hc j (Fin.cast h.1.symm ⟨1, hh⟩)).val < 1 :=
      (Shape.reshapeEquiv hc j (Fin.cast h.1.symm ⟨1, hh⟩)).isLt
    show 0 + (Shape.reshapeEquiv hc j (Fin.cast h.1.symm ⟨1, hh⟩)).val = 0
    omega

/-- What `%6` holds after the lines that follow the region: the mean. -/
theorem tail6 (c : Dev nD) :
    Pipeline.afterTail₀ cfgs (dats m) 0 (V0 m) [hostOps1] c main_v6 = fun _ => XEnt.mean (xarr m c) (tarr m c) := by
  unfold Pipeline.afterTail₀
  show StableHlo.after hostOps1 _ (Proc.devRef .tc main_v6) = _
  after_results
  have hv0 : Pipeline.withArrays (cfgs 0).spec c (V0 m c) (fun w => (dats m 0 c).arrAt w (cfgs 0).N)
      (Proc.devRef .tc main_v0) = Gout m c :=
    (Pipeline.withArrays_arr spec0 launch0.win.arr_inj c _ _ 2).trans (final2 m c)
  rw [hv0]
  funext j
  unfold XEnt.mean
  rw [XEnt.total_eq_blockSums]
  refine congrArg₂ Ideal.div (congrArg₂ (· + ·) ?_ ?_) rfl
  · refine (slice_entry (Gout m c) 0 (by omega) _ _ j).trans ?_
    show (∑ k ∈ Finset.range 24, XEnt.blockSum (xarr m c) (tarr m c) (24 * (0 / 8) + k)) = _
    refine Finset.sum_congr rfl fun k _ => ?_
    congr 1
    omega
  · refine (slice_entry (Gout m c) 8 (by omega) _ _ j).trans ?_
    show (∑ k ∈ Finset.range 24, XEnt.blockSum (xarr m c) (tarr m c) (24 * (8 / 8) + k)) = _
    refine Finset.sum_congr rfl fun k _ => ?_
    congr 1

/-- THE KERNEL'S VALUE. At the compiled mesh, from any memory with zero counters, every weakly fair execution of @main
    terminates with `%6` at the mean of the pixels' negative log-likelihoods and both arguments unchanged. -/
theorem run : θ_run Cert.KernelIdeal.defs (onTc (τ := τ) (Cert.KernelIdeal.main (F := Ideal))) ⟨m, fun _ => 0, ρ⟩ fun r =>
    ∀ c : Dev nD,
      r.2.mem ((c.tc : Thread nD τ).loc main_v6)
          = (fun _ => XEnt.mean (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (by decide)).trans (tail6 m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end XEnt.KValue

end
-- ==== Proof.LibTypedRefs.lean ====
/-
  Reading a module-local function's operations through typed references.

  A typed reference `x : TRef sig T` names a buffer whose type is `T` by an equation, and the builders of a function's
  operations (`TRef.nullary`, `TRef.unary`, …) transport contents along that equation in both directions. Read through
  the reference (`rd x V`: the buffer's contents under the valuation `V`, at the value's type `T`), an operation's
  result is its function of its operands read the same way, with no transport left; and a buffer the operation does
  not write reads as before. For every signature and every value family.
-/
import Idealize.ShloMosaic.Lib.StableHlo.Run

noncomputable section

namespace Idealize.ShloMosaic.StableHlo.TRef

open Idealize.ShloMosaic Idealize.ShloMosaic.TcCoe Idealize.ShloMosaic.StableHlo

variable {τ : Topo} {sig : RefSig} {Val : EltTy → Type}
variable {T Tx Ta Tb Tc Ty Tz : BufTy}

/-- The contents of a typed reference's buffer under a valuation, at the value's type. -/
def rd (x : TRef sig T) (V : Valuation τ sig Val) : T.Contents Val := x.ofBuf (V (Proc.devRef .tc x.ref))

/-- A constant's buffer reads as the constant. -/
theorem rd_nullary (y : TRef sig Ty) (v : Ty.Contents Val) (V : Valuation τ sig Val) :
    rd y ((TRef.nullary (τ := τ) y v).result V) = v := by
  obtain ⟨r, rfl, hd, hs⟩ := y
  exact nullary_result r v _ V

/-- A one-operand operation's result reads as its function of the operand read. -/
theorem rd_unary (x : TRef sig Tx) (y : TRef sig Ty) (f : Tx.Contents Val → Ty.Contents Val) (V : Valuation τ sig Val) :
    rd y ((TRef.unary (τ := τ) x y f).result V) = f (rd x V) := by
  obtain ⟨rx, rfl, hdx, hsx⟩ := x
  obtain ⟨ry, rfl, hdy, hsy⟩ := y
  exact unary_result rx ry _ _ _ V

/-- A two-operand operation's result reads as its function of the operands read. -/
theorem rd_binary (a : TRef sig Ta) (b : TRef sig Tb) (y : TRef sig Ty)
    (f : Ta.Contents Val → Tb.Contents Val → Ty.Contents Val) (V : Valuation τ sig Val) :
    rd y ((TRef.binary (τ := τ) a b y f).result V) = f (rd a V) (rd b V) := by
  obtain ⟨ra, rfl, hda, hsa⟩ := a
  obtain ⟨rb, rfl, hdb, hsb⟩ := b
  obtain ⟨ry, rfl, hdy, hsy⟩ := y
  exact binary_result ra rb ry _ _ _ _ V

/-- A three-operand operation's result reads as its function of the operands read. -/
theorem rd_ternary (c : TRef sig Tc) (a : TRef sig Ta) (b : TRef sig Tb) (y : TRef sig Ty)
    (f : Tc.Contents Val → Ta.Contents Val → Tb.Contents Val → Ty.Contents Val) (V : Valuation τ sig Val) :
    rd y ((TRef.ternary (τ := τ) c a b y f).result V) = f (rd c V) (rd a V) (rd b V) := by
  obtain ⟨rc, rfl, hdc, hsc⟩ := c
  obtain ⟨ra, rfl, hda, hsa⟩ := a
  obtain ⟨rb, rfl, hdb, hsb⟩ := b
  obtain ⟨ry, rfl, hdy, hsy⟩ := y
  exact ternary_result rc ra rb ry _ _ _ _ _ V

/-- A reshape's result reads as the reshape of the operand read. -/
theorem rd_reshape (x : TRef sig Tx) (y : TRef sig Ty) (he : Tx.elt = Ty.elt) (hn : Tx.shape.ShapeCasts Ty.shape)
    (V : Valuation τ sig Val) :
    rd y ((TRef.reshape (τ := τ) (Val := Val) x y he hn).result V) = fun i => he ▸ shapeCast Ty.shape (rd x V) hn i := by
  obtain ⟨rx, rfl, hdx, hsx⟩ := x
  obtain ⟨ry, rfl, hdy, hsy⟩ := y
  exact reshape_result rx ry _ _ _ _ V

/-! A buffer other than the one an operation writes reads as before. -/

theorem rd_nullary_ne (z : TRef sig Tz) (y : TRef sig Ty) (v : Ty.Contents Val) (V : Valuation τ sig Val)
    (h : z.ref ≠ y.ref) : rd z ((TRef.nullary (τ := τ) y v).result V) = rd z V := by
  exact congrArg z.ofBuf (nullary_result_ne (F := V) (h := h) ..)

theorem rd_unary_ne (z : TRef sig Tz) (x : TRef sig Tx) (y : TRef sig Ty) (f : Tx.Contents Val → Ty.Contents Val)
    (V : Valuation τ sig Val) (h : z.ref ≠ y.ref) : rd z ((TRef.unary (τ := τ) x y f).result V) = rd z V := by
  exact congrArg z.ofBuf (unary_result_ne (F := V) (h := h) ..)

theorem rd_binary_ne (z : TRef sig Tz) (a : TRef sig Ta) (b : TRef sig Tb) (y : TRef sig Ty)
    (f : Ta.Contents Val → Tb.Contents Val → Ty.Contents Val) (V : Valuation τ sig Val) (h : z.ref ≠ y.ref) :
    rd z ((TRef.binary (τ := τ) a b y f).result V) = rd z V := by
  exact congrArg z.ofBuf (binary_result_ne (F := V) (h := h) ..)

theorem rd_ternary_ne (z : TRef sig Tz) (c : TRef sig Tc) (a : TRef sig Ta) (b : TRef sig Tb) (y : TRef sig Ty)
    (f : Tc.Contents Val → Ta.Contents Val → Tb.Contents Val → Ty.Contents Val) (V : Valuation τ sig Val)
    (h : z.ref ≠ y.ref) : rd z ((TRef.ternary (τ := τ) c a b y f).result V) = rd z V := by
  exact congrArg z.ofBuf (ternary_result_ne (F := V) (h := h) ..)

theorem rd_reshape_ne (z : TRef sig Tz) (x : TRef sig Tx) (y : TRef sig Ty) (he : Tx.elt = Ty.elt)
    (hn : Tx.shape.ShapeCasts Ty.shape) (V : Valuation τ sig Val) (h : z.ref ≠ y.ref) :
    rd z ((TRef.reshape (τ := τ) (Val := Val) x y he hn).result V) = rd z V := by
  exact congrArg z.ofBuf (reshape_result_ne (F := V) (h := h) ..)

/-- The same for the operations of @main itself, written over plain references. -/
theorem rd_plain_unary_ne (z : TRef sig Tz) (x y : Ref sig .tc) (f : x.ty.Contents Val → y.ty.Contents Val) (hx hy)
    (V : Valuation τ sig Val) (h : z.ref ≠ y) : rd z ((StableHlo.unary (τ := τ) x y f hx hy).result V) = rd z V := by
  exact congrArg z.ofBuf (unary_result_ne (F := V) (h := h) ..)

end Idealize.ShloMosaic.StableHlo.TRef

end
-- ==== Proof.RefEval.lean ====
/-
  The reference's forty-five host operations, evaluated in five stretches: the log-softmax over the class axis (its
  result the array of log-probabilities), the label broadcast over the leading axis, the label wrapped when negative
  and given a trailing unit axis (the gather's start index), the gather along the class axis guarded by the range
  test, and the negated mean. The operations of the two called functions are read through their typed references,
  so that each stretch's result is a plain function of what the stretch reads; the whole fold is their composition,
  the stage function that reads the program one operation at a time.
-/
import proofs.«425725_j7799660609794_1_alg».proof.Proof.RefReadP
import proofs.«425725_j7799660609794_1_alg».proof.Proof.LibTypedRefs
import Idealize.ShloMosaic.Lib.Pipeline.Frame

noncomputable section

namespace XEnt.RefEval

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Idealize.ShloMosaic.StableHlo.TRef (rd rd_nullary rd_unary rd_binary rd_ternary rd_reshape rd_nullary_ne rd_unary_ne
  rd_binary_ne rd_ternary_ne rd_reshape_ne rd_plain_unary_ne)

variable {F : FTy → Type} [FloatOps F]

/-- The log-softmax: fifteen operations, ending in the log-probabilities. -/
abbrev opsLsm : List (HloOp τ sig (Elt F)) :=
  [ TRef.nullary (TRef.of (T := ⟨S_, .f32⟩) main_call0_cst) (constant S_ .f32 0xFF800000#32),
    TRef.binary (TRef.of (T := ⟨S6x16x2x512x512, .f32⟩) main_arg0) (TRef.of (T := ⟨S_, .f32⟩) main_call0_cst) (TRef.of (T := ⟨S6x16x512x512, .f32⟩) main_call0_v0) (fun x v => Host.reduce FloatOps.maximumf x v reducesTo_S6x16x2x512x512_S6x16x512x512_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S6x16x512x512, .f32⟩) main_call0_v1) (broadcastInDim S6x16x512x512 ![] bcast_S_S6x16x512x512),
    TRef.binary (TRef.of (T := ⟨S6x16x512x512, .f32⟩) main_call0_v1) (TRef.of (T := ⟨S6x16x512x512, .f32⟩) main_call0_v0) (TRef.of (T := ⟨S6x16x512x512, .f32⟩) main_call0_v2) maximumf,
    TRef.unary (TRef.of (T := ⟨S6x16x512x512, .f32⟩) main_call0_v2) (TRef.of (T := ⟨S6x16x1x512x512, .f32⟩) main_call0_v3) (broadcastInDim S6x16x1x512x512 ![0, 1, 3, 4] bcast_S6x16x512x512_S6x16x1x512x512_0_1_3_4),
    TRef.unary (TRef.of (T := ⟨S6x16x1x512x512, .f32⟩) main_call0_v3) (TRef.of (T := ⟨S6x16x2x512x512, .f32⟩) main_call0_v4) (broadcastInDim S6x16x2x512x512 ![0, 1, 2, 3, 4] bcast_S6x16x1x512x512_S6x16x2x512x512_0_1_2_3_4),
    TRef.binary (TRef.of (T := ⟨S6x16x2x512x512, .f32⟩) main_arg0) (TRef.of (T := ⟨S6x16x2x512x512, .f32⟩) main_call0_v4) (TRef.of (T := ⟨S6x16x2x512x512, .f32⟩) main_call0_v5) subf,
    TRef.unary (TRef.of (T := ⟨S6x16x2x512x512, .f32⟩) main_call0_v5) (TRef.of (T := ⟨S6x16x2x512x512, .f32⟩) main_call0_v6) Host.exp,
    TRef.nullary (TRef.of (T := ⟨S_, .f32⟩) main_call0_cst_1) (constant S_ .f32 0x00000000#32),
    TRef.binary (TRef.of (T := ⟨S6x16x2x512x512, .f32⟩) main_call0_v6) (TRef.of (T := ⟨S_, .f32⟩) main_call0_cst_1) (TRef.of (T := ⟨S6x16x512x512, .f32⟩) main_call0_v7) (fun x v => Host.reduceAdd x v reducesTo_S6x16x2x512x512_S6x16x512x512_d2 h_S_),
    TRef.unary (TRef.of (T := ⟨S6x16x512x512, .f32⟩) main_call0_v7) (TRef.of (T := ⟨S6x16x1x512x512, .f32⟩) main_call0_v8) (broadcastInDim S6x16x1x512x512 ![0, 1, 3, 4] bcast_S6x16x512x512_S6x16x1x512x512_0_1_3_4),
    TRef.unary (TRef.of (T := ⟨S6x16x1x512x512, .f32⟩) main_call0_v8) (TRef.of (T := ⟨S6x16x1x512x512, .f32⟩) main_call0_v9) Host.log,
    TRef.unary (TRef.of (T := ⟨S6x16x1x512x512, .f32⟩) main_call0_v9) (TRef.of (T := ⟨S6x16x2x512x512, .f32⟩) main_call0_v10) (broadcastInDim S6x16x2x512x512 ![0, 1, 2, 3, 4] bcast_S6x16x1x512x512_S6x16x2x512x512_0_1_2_3_4),
    TRef.binary (TRef.of (T := ⟨S6x16x2x512x512, .f32⟩) main_call0_v5) (TRef.of (T := ⟨S6x16x2x512x512, .f32⟩) main_call0_v10) (TRef.of (T := ⟨S6x16x2x512x512, .f32⟩) main_v0) subf ]

/-- The label broadcast over the leading axis. -/
abbrev opsLbl : List (HloOp τ sig (Elt F)) :=
  [ unary main_arg1 main_v1 (broadcastInDim S1x16x1x512x512 ![1, 3, 4] bcast_S16x512x512_S1x16x1x512x512_1_3_4 : (⟨S16x512x512, .i32⟩ : BufTy).Contents (Elt F) → (⟨S1x16x1x512x512, .i32⟩ : BufTy).Contents (Elt F)),
    unary main_v1 main_v2 (broadcastInDim S6x16x1x512x512 ![0, 1, 2, 3, 4] bcast_S1x16x1x512x512_S6x16x1x512x512_0_1_2_3_4 : (⟨S1x16x1x512x512, .i32⟩ : BufTy).Contents (Elt F) → (⟨S6x16x1x512x512, .i32⟩ : BufTy).Contents (Elt F)) ]

/-- The label wrapped when negative and reshaped to the gather's start index. -/
abbrev opsIdx : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S6x16x1x512x512, .i32⟩) main_call1_v0) (broadcastInDim S6x16x1x512x512 ![] bcast_S_S6x16x1x512x512),
    TRef.binary (TRef.of (T := ⟨S6x16x1x512x512, .i32⟩) main_v2) (TRef.of (T := ⟨S6x16x1x512x512, .i32⟩) main_call1_v0) (TRef.of (T := ⟨S6x16x1x512x512, .i1⟩) main_call1_v1) (cmpi .slt),
    TRef.nullary (TRef.of (T := ⟨S_, .i32⟩) main_call1_c_0) (constantI S_ 32 2#32),
    TRef.unary (TRef.of (T := ⟨S_, .i32⟩) main_call1_c_0) (TRef.of (T := ⟨S6x16x1x512x512, .i32⟩) main_call1_v2) (broadcastInDim S6x16x1x512x512 ![] bcast_S_S6x16x1x512x512),
    TRef.binary (TRef.of (T := ⟨S6x16x1x512x512, .i32⟩) main_v2) (TRef.of (T := ⟨S6x16x1x512x512, .i32⟩) main_call1_v2) (TRef.of (T := ⟨S6x16x1x512x512, .i32⟩) main_call1_v3) addi,
    TRef.ternary (TRef.of (T := ⟨S6x16x1x512x512, .i1⟩) main_call1_v1) (TRef.of (T := ⟨S6x16x1x512x512, .i32⟩) main_call1_v3) (TRef.of (T := ⟨S6x16x1x512x512, .i32⟩) main_v2) (TRef.of (T := ⟨S6x16x1x512x512, .i32⟩) main_call1_v4) select,
    TRef.reshape (TRef.of (T := ⟨S6x16x1x512x512, .i32⟩) main_call1_v4) (TRef.of (T := ⟨S6x16x1x512x512x1, .i32⟩) main_call1_v5) rfl shapeCasts_S6x16x1x512x512_S6x16x1x512x512x1 ]

/-- The range test, the gather and the select between them. -/
abbrev opsTake : List (HloOp τ sig (Elt F)) :=
  [ TRef.nullary (TRef.of (T := ⟨S1, .i32⟩) main_call1_c_1) (constantI S1 32 1#32),
    TRef.nullary (TRef.of (T := ⟨S_, .i32⟩) main_call1_c_2) (constantI S_ 32 0#32),
    TRef.unary (TRef.of (T := ⟨S_, .i32⟩) main_call1_c_2) (TRef.of (T := ⟨S6x16x1x512x512x1, .i32⟩) main_call1_v6) (broadcastInDim S6x16x1x512x512x1 ![] bcast_S_S6x16x1x512x512x1),
    TRef.binary (TRef.of (T := ⟨S6x16x1x512x512x1, .i32⟩) main_call1_v5) (TRef.of (T := ⟨S6x16x1x512x512x1, .i32⟩) main_call1_v6) (TRef.of (T := ⟨S6x16x1x512x512x1, .i1⟩) main_call1_v7) (cmpi .sge),
    TRef.unary (TRef.of (T := ⟨S1, .i32⟩) main_call1_c_1) (TRef.of (T := ⟨S1x1x1x1x1x1, .i32⟩) main_call1_v8) (broadcastInDim S1x1x1x1x1x1 ![5] bcast_S1_S1x1x1x1x1x1_5),
    TRef.unary (TRef.of (T := ⟨S1x1x1x1x1x1, .i32⟩) main_call1_v8) (TRef.of (T := ⟨S6x16x1x512x512x1, .i32⟩) main_call1_v9) (broadcastInDim S6x16x1x512x512x1 ![0, 1, 2, 3, 4, 5] bcast_S1x1x1x1x1x1_S6x16x1x512x512x1_0_1_2_3_4_5),
    TRef.binary (TRef.of (T := ⟨S6x16x1x512x512x1, .i32⟩) main_call1_v5) (TRef.of (T := ⟨S6x16x1x512x512x1, .i32⟩) main_call1_v9) (TRef.of (T := ⟨S6x16x1x512x512x1, .i1⟩) main_call1_v10) (cmpi .sle),
    TRef.binary (TRef.of (T := ⟨S6x16x1x512x512x1, .i1⟩) main_call1_v7) (TRef.of (T := ⟨S6x16x1x512x512x1, .i1⟩) main_call1_v10) (TRef.of (T := ⟨S6x16x1x512x512x1, .i1⟩) main_call1_v11) andi,
    TRef.nullary (TRef.of (T := ⟨S_, .i1⟩) main_call1_c_3) (constantI S_ 1 1#1),
    TRef.binary (TRef.of (T := ⟨S6x16x1x512x512x1, .i1⟩) main_call1_v11) (TRef.of (T := ⟨S_, .i1⟩) main_call1_c_3) (TRef.of (T := ⟨S6x16x1x512x512, .i1⟩) main_call1_v12) (fun x v => Host.reduce IntOp.andi x v reducesTo_S6x16x1x512x512x1_S6x16x1x512x512_d5 h_S_),
    TRef.binary (TRef.of (T := ⟨S6x16x2x512x512, .f32⟩) main_v0) (TRef.of (T := ⟨S6x16x1x512x512x1, .i32⟩) main_call1_v5) (TRef.of (T := ⟨S6x16x1x512x512, .f32⟩) main_call1_v13) (fun x i => Host.gather gather_S6x16x2x512x512_S6x16x1x512x512x1_S6x16x1x512x512_n_2_0134_0134_2_5_11111 x i),
    TRef.nullary (TRef.of (T := ⟨S_, .f32⟩) main_call1_cst) (constant S_ .f32 0x7FC00000#32),
    TRef.unary (TRef.of (T := ⟨S_, .f32⟩) main_call1_cst) (TRef.of (T := ⟨S6x16x1x512x512, .f32⟩) main_call1_v14) (broadcastInDim S6x16x1x512x512 ![] bcast_S_S6x16x1x512x512),
    TRef.ternary (TRef.of (T := ⟨S6x16x1x512x512, .i1⟩) main_call1_v12) (TRef.of (T := ⟨S6x16x1x512x512, .f32⟩) main_call1_v13) (TRef.of (T := ⟨S6x16x1x512x512, .f32⟩) main_call1_v14) (TRef.of (T := ⟨S6x16x1x512x512, .f32⟩) main_v3) select ]

/-- The unit axis dropped, the negation, the sum over everything and the division by the count. -/
abbrev opsMean : List (HloOp τ sig (Elt F)) :=
  [ reshape main_v3 main_v4 rfl shapeCasts_S6x16x1x512x512_S6x16x512x512,
    unary main_v4 main_v5 (Host.negf : (⟨S6x16x512x512, .f32⟩ : BufTy).Contents (Elt F) → (⟨S6x16x512x512, .f32⟩ : BufTy).Contents (Elt F)),
    nullary main_cst (constant S_ .f32 0x00000000#32),
    binary main_v5 main_cst main_v6 ((fun x v => Host.reduceAdd x v reducesTo_S6x16x512x512_S_d0_1_2_3 h_S_) : (⟨S6x16x512x512, .f32⟩ : BufTy).Contents (Elt F) → (⟨S_, .f32⟩ : BufTy).Contents (Elt F) → (⟨S_, .f32⟩ : BufTy).Contents (Elt F)),
    nullary main_cst_0 (constant S_ .f32 0x4BC00000#32),
    binary main_v6 main_cst_0 main_v7 (Host.divf : (⟨S_, .f32⟩ : BufTy).Contents (Elt F) → (⟨S_, .f32⟩ : BufTy).Contents (Elt F) → (⟨S_, .f32⟩ : BufTy).Contents (Elt F)) ]

set_option maxRecDepth 8192 in
/-- The program's operation list is the five stretches in order. -/
theorem ops_split : (ops (F := F)) = opsLsm ++ (opsLbl ++ (opsIdx ++ (opsTake ++ opsMean))) := rfl

/-- The buffers at which one stretch hands over to the next, as typed references. -/
abbrev tArg0 : TRef sig ⟨S6x16x2x512x512, .f32⟩ := TRef.of main_arg0
abbrev tLogp : TRef sig ⟨S6x16x2x512x512, .f32⟩ := TRef.of main_v0
abbrev tLbl : TRef sig ⟨S6x16x1x512x512, .i32⟩ := TRef.of main_v2
abbrev tIdx : TRef sig ⟨S6x16x1x512x512x1, .i32⟩ := TRef.of main_call1_v5
abbrev tTake : TRef sig ⟨S6x16x1x512x512, .f32⟩ := TRef.of main_v3

/-- One operation at a time: the operation that wrote the buffer gives its function of its operands, any other
    leaves the buffer as it was (the two buffers differ: decided). -/
macro "rd_results" : tactic =>
  `(tactic| (simp only [after_cons, after_nil]
             repeat (first
               | rw [rd_nullary] | rw [rd_unary] | rw [rd_binary] | rw [rd_ternary] | rw [rd_reshape]
               | (rw [rd_nullary_ne]; rotate_left; decide)
               | (rw [rd_unary_ne]; rotate_left; decide)
               | (rw [rd_binary_ne]; rotate_left; decide)
               | (rw [rd_ternary_ne]; rotate_left; decide)
               | (rw [rd_reshape_ne]; rotate_left; decide)
               | (rw [rd_plain_unary_ne]; rotate_left; decide))))

variable (V : Valuation τ sig (Elt F))

/-- After the first stretch the log-probabilities are the stage `val_main_v0` of the logits. -/
theorem lsm_eq : rd tLogp (after (opsLsm (F := F)) V) = val_main_v0 (F := F) (rd tArg0 V) := by
  unfold opsLsm
  rd_results
  generalize rd tArg0 V = x0
  simp only [val_main_v0, val_main_call0_v10, val_main_call0_v9, val_main_call0_v8, val_main_call0_v7, val_main_call0_cst_1,
    val_main_call0_v6, val_main_call0_v5, val_main_call0_v4, val_main_call0_v3, val_main_call0_v2, val_main_call0_v1,
    val_main_call0_cst_0, val_main_call0_v0, val_main_call0_cst]

/-- The first stretch leaves the labels alone. -/
theorem lsm_keeps_lbl : after (opsLsm (F := F)) V (Proc.devRef .tc main_arg1) = V (Proc.devRef .tc main_arg1) := by
  after_results_simp

/-- After the second stretch the broadcast label is the stage `val_main_v2` of the labels. -/
theorem lbl_eq : after (opsLbl (F := F)) V (Proc.devRef .tc main_v2) = val_main_v2 (F := F) (V (Proc.devRef .tc main_arg1)) := by
  after_results_simp
  rfl

/-- The second stretch leaves the log-probabilities alone. -/
theorem lbl_keeps_logp : rd tLogp (after (opsLbl (F := F)) V) = rd tLogp V := by
  unfold opsLbl
  rd_results

/-- The start index from the broadcast label: two added where it is negative, then a trailing unit axis. -/
def idxStage (i2 : (⟨S6x16x1x512x512, .i32⟩ : BufTy).Contents (Elt F)) : (⟨S6x16x1x512x512x1, .i32⟩ : BufTy).Contents (Elt F) :=
  shapeCast _ (select (cmpi .slt i2 (val_main_call1_v0 (F := F))) (addi i2 (val_main_call1_v2 (F := F))) i2)
    shapeCasts_S6x16x1x512x512_S6x16x1x512x512x1

/-- After the third stretch the start index is `idxStage` of the broadcast label. -/
theorem idx_eq : rd tIdx (after (opsIdx (F := F)) V) = idxStage (rd tLbl V) := by
  unfold opsIdx
  rd_results
  generalize rd tLbl V = i2
  simp only [idxStage, val_main_call1_v0, val_main_call1_c, val_main_call1_v2, val_main_call1_c_0]

/-- The third stretch leaves the log-probabilities alone. -/
theorem idx_keeps_logp : rd tLogp (after (opsIdx (F := F)) V) = rd tLogp V := by
  unfold opsIdx
  rd_results

/-- The guarded gather: the entry of the log-probabilities the start index names where it is in range, the NaN word
    elsewhere. -/
def takeStage (lp : (⟨S6x16x2x512x512, .f32⟩ : BufTy).Contents (Elt F)) (i5 : (⟨S6x16x1x512x512x1, .i32⟩ : BufTy).Contents (Elt F)) :
    (⟨S6x16x1x512x512, .f32⟩ : BufTy).Contents (Elt F) :=
  select (Host.reduce IntOp.andi (andi (cmpi .sge i5 (val_main_call1_v6 (F := F))) (cmpi .sle i5 (val_main_call1_v9 (F := F))))
      (val_main_call1_c_3 (F := F)) reducesTo_S6x16x1x512x512x1_S6x16x1x512x512_d5 h_S_)
    (Host.gather gather_S6x16x2x512x512_S6x16x1x512x512x1_S6x16x1x512x512_n_2_0134_0134_2_5_11111 lp i5)
    (val_main_call1_v14 (F := F))

/-- After the fourth stretch the gathered array is `takeStage` of the log-probabilities and the start index. -/
theorem take_eq : rd tTake (after (opsTake (F := F)) V) = takeStage (rd tLogp V) (rd tIdx V) := by
  unfold opsTake
  rd_results
  generalize rd tLogp V = lp
  generalize rd tIdx V = i5
  simp only [takeStage, val_main_call1_v6, val_main_call1_c_2, val_main_call1_v9, val_main_call1_v8, val_main_call1_c_1,
    val_main_call1_c_3, val_main_call1_v14, val_main_call1_cst]

/-- The negated mean of the gathered array. -/
def meanStage (v3 : (⟨S6x16x1x512x512, .f32⟩ : BufTy).Contents (Elt F)) : (⟨S_, .f32⟩ : BufTy).Contents (Elt F) :=
  Host.divf (Host.reduceAdd (Host.negf (shapeCast _ v3 shapeCasts_S6x16x1x512x512_S6x16x512x512)) (val_main_cst (F := F))
    reducesTo_S6x16x512x512_S_d0_1_2_3 h_S_) (val_main_cst_0 (F := F))

/-- After the last stretch the result is `meanStage` of the gathered array. -/
theorem mean_eq : after (opsMean (F := F)) V (Proc.devRef .tc main_v7) = meanStage (V (Proc.devRef .tc main_v3)) := by
  after_results_simp
  rfl

/-- At a stretch boundary a typed reference reads what the valuation holds there. -/
theorem rd_arg0 : rd tArg0 V = V (Proc.devRef .tc main_arg0) := rfl
theorem rd_lbl : rd tLbl V = V (Proc.devRef .tc main_v2) := rfl
theorem rd_take : rd tTake V = V (Proc.devRef .tc main_v3) := rfl

/-- The five stretches composed are the last stage function. -/
theorem stages_eq (x0 : (⟨S6x16x2x512x512, .f32⟩ : BufTy).Contents (Elt F)) (x1 : (⟨S16x512x512, .i32⟩ : BufTy).Contents (Elt F)) :
    meanStage (takeStage (val_main_v0 (F := F) x0) (idxStage (val_main_v2 (F := F) x1))) = val_main_v7 (F := F) x0 x1 := by
  simp only [meanStage, takeStage, idxStage, val_main_v7, val_main_v6, val_main_v5, val_main_v4, val_main_v3,
    val_main_call1_v12, val_main_call1_v11, val_main_call1_v10, val_main_call1_v7, val_main_call1_v13,
    val_main_call1_v5, val_main_call1_v4, val_main_call1_v3, val_main_call1_v1]

/-- The whole fold at the result buffer is the last stage function of the two arguments. -/
theorem eval (m : (ℓ : Loc nD τ sig) → Buf (Elt F) ℓ) (c : Dev nD) :
    after (ops (F := F)) (launchContents m c) (Proc.devRef .tc main_v7)
      = val_main_v7 (F := F) (m ((c.tc : Thread nD τ).loc main_arg0)) (m ((c.tc : Thread nD τ).loc main_arg1)) := by
  rw [ops_split, after_append, after_append, after_append, after_append]
  rw [mean_eq, ← rd_take (after opsTake (after opsIdx (after opsLbl (after opsLsm (launchContents m c))))),
    take_eq, idx_eq, idx_keeps_logp, lbl_keeps_logp, lsm_eq, rd_lbl, lbl_eq, lsm_keeps_lbl, rd_arg0]
  exact stages_eq _ _

end XEnt.RefEval

end
-- ==== Proof.RefValuePix.lean ====
/-
  The two-class negative log-likelihood over the reals: the log-softmax form
  `-((l_t - M) - log (exp (l0 - M) + exp (l1 - M)))` with `M = max l0 l1` is the shifted form
  `max l0 l1 + log (1 + exp (-|l0 - l1|)) - l_t`, because one of `l0 - M`, `l1 - M` is `0` and the
  other is `-|l0 - l1|`.
-/
import proofs.«425725_j7799660609794_1_alg».proof.Proof.Spec

noncomputable section

namespace XEnt.Ref

open Idealize.ShloMosaic

/-- The maximum of two reals, taken in the extended reals, is the real maximum. -/
theorem max_coe (a b : ℝ) : max (a : EReal) (b : EReal) = ((max a b : ℝ) : EReal) :=
  (EReal.coe_strictMono.monotone.map_max).symm

/-- With the larger of the two subtracted, the two exponentials are `1` and `exp (-|a - b|)`. -/
theorem exp_shift_sum (a b : ℝ) :
    Real.exp (a - max a b) + Real.exp (b - max a b) = 1 + Real.exp (0 - max (a - b) (-(a - b))) := by
  rcases le_total a b with h | h
  · have h1 : max a b = b := max_eq_right h
    have h2 : max (a - b) (-(a - b)) = -(a - b) := max_eq_right (by linarith)
    rw [h1, h2, sub_self, Real.exp_zero, show (0 : ℝ) - -(a - b) = a - b by ring, add_comm]
  · have h1 : max a b = a := max_eq_left h
    have h2 : max (a - b) (-(a - b)) = a - b := max_eq_left (by linarith)
    rw [h1, h2, sub_self, Real.exp_zero, show (0 : ℝ) - (a - b) = b - a by ring]

/-- On two real logits the negative log-likelihood is a real number: the shifted form, computed in `ℝ`. -/
theorem nll_coe (a b : ℝ) (t : BitVec 32) :
    XEnt.nll (a : EReal) (b : EReal) t
      = (((max a b + Real.log (1 + Real.exp (0 - max (a - b) (-(a - b))))) - (if t = 0#32 then a else b) : ℝ) : EReal) := by
  have hpos : ¬ (1 + Real.exp (0 - max (a - b) (-(a - b))) ≤ 0) := not_le.mpr (by positivity)
  unfold XEnt.nll Ideal.log1p
  rw [← EReal.coe_sub, ← EReal.coe_neg, max_coe, max_coe, ← EReal.coe_zero, ← EReal.coe_sub, Ideal.exp_coe,
    ← EReal.coe_one, ← EReal.coe_add, Ideal.log_coe, if_neg hpos, ← EReal.coe_add]
  split_ifs <;> rw [← EReal.coe_sub]

/-- The per-pixel identity: for real logits `a`, `b` and `M` their maximum, minus the log-softmax entry of the
    labelled class is the negative log-likelihood of the specification. -/
theorem neg_logp_eq_nll (a b : ℝ) (t : BitVec 32) (M : EReal) (hM : M = max (a : EReal) (b : EReal)) :
    -(((if t = 0#32 then (a : EReal) else (b : EReal)) - M)
        - Ideal.log (0 + (Ideal.exp ((a : EReal) - M) + Ideal.exp ((b : EReal) - M))))
      = XEnt.nll (a : EReal) (b : EReal) t := by
  have hpos : ¬ (Real.exp (a - max a b) + Real.exp (b - max a b) ≤ 0) := not_le.mpr (by positivity)
  subst hM
  rw [nll_coe, max_coe, ← EReal.coe_sub, ← EReal.coe_sub, Ideal.exp_coe, Ideal.exp_coe, ← EReal.coe_add, zero_add,
    Ideal.log_coe, if_neg hpos, exp_shift_sum]
  split_ifs <;> rw [← EReal.coe_sub, ← EReal.coe_sub, ← EReal.coe_neg] <;> congr 1 <;> ring

end XEnt.Ref

end
-- ==== Proof.RefValueSum.lean ====
/-
  A sum over the indices of a rank-4 array is the four nested sums over its coordinates.
-/
import Idealize.ShloMosaic.Lib.ValueIdx

noncomputable section

open scoped BigOperators

namespace XEnt.Ref

open Idealize.ShloMosaic Idealize.ShloMosaic.ValueIdx

/-- A rank-4 index set is the product of its four coordinate ranges. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- So a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end XEnt.Ref

end
-- ==== Proof.RefValueStages.lean ====
/-
  The four stages of the reference that have no generated reading, read at an index: the maximum over the class
  axis, the reshape that adds a trailing unit axis, the conjunction over that axis, and the gather along the class axis
  (the last in its own module).
-/
import proofs.«425725_j7799660609794_1_alg».proof.Proof.RefReadP
import Idealize.ShloMosaic.Lib.ValueIdx
import Idealize.ShloMosaic.Lib.ValueIdxRank6
import Idealize.ShloMosaic.PureOps.Reduce
import Idealize.ShloMosaic.PureOps.Ideal.Laws

noncomputable section

namespace XEnt.Ref

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- A fold of a commutative, associative operation over the two coordinates of an axis of extent 2. -/
theorem fold_fin2 {α : Type} (op : α → α → α) [Std.Commutative op] [Std.Associative op] (b : α) (f : Fin 2 → α) :
    (Finset.univ : Finset (Fin 2)).fold op b f = op (f 0) (op (f 1) b) := by
  rw [show (Finset.univ : Finset (Fin 2)) = insert 0 {1} from by decide, Finset.fold_insert (by decide),
    Finset.fold_singleton]

/-- The same over the one coordinate of an axis of extent 1. -/
theorem fold_fin1 {α : Type} (op : α → α → α) [Std.Commutative op] [Std.Associative op] (b : α) (f : Fin 1 → α) :
    (Finset.univ : Finset (Fin 1)).fold op b f = op (f 0) b := by
  rw [show (Finset.univ : Finset (Fin 1)) = {0} from by decide, Finset.fold_singleton]

/-- The word `0xFF800000` denotes `-∞`. -/
theorem ofBits_neg_inf : Ideal.ofBits .f32 0xFF800000#32 = ⊥ := by simp [Ideal.ofBits, Ideal.ieee]

/-- The maximum over the class axis, from `-∞`: the larger of the two class entries. -/
theorem val_main_call0_v0_apply (x0 : (⟨S6x16x2x512x512, .f32⟩ : BufTy).Contents (Elt Ideal)) (i : S6x16x512x512.Idx) :
    val_main_call0_v0 (F := Ideal) x0 i = max (x0 (idx_main_call0_v7 i 0)) (x0 (idx_main_call0_v7 i 1)) := by
  have hR : S6x16x2x512x512.Reduces [2] S6x16x512x512 := by decide
  have hl : ∀ k : Fin 2, hR.lift i k = idx_main_call0_v7 i k := fun k => funext fun a => Fin.ext (by
    match a with | ⟨0, _⟩ => rfl | ⟨1, _⟩ => rfl | ⟨2, _⟩ => rfl | ⟨3, _⟩ => rfl | ⟨4, _⟩ => rfl)
  unfold val_main_call0_v0
  have key := Host.reduce_eq_fold_single (α := Ideal .f32) (s := S6x16x2x512x512) (t := S6x16x512x512) (u := S_) (a := 2)
    (FloatOps.maximumf (F := Ideal) (φ := .f32)) x0 (val_main_call0_cst (F := Ideal)) reducesTo_S6x16x2x512x512_S6x16x512x512_d2 hR h_S_ i
  rw [key]
  refine (fold_fin2 (α := EReal) _ _ _).trans ?_
  show max (x0 (hR.lift i (0 : Fin 2))) (max (x0 (hR.lift i (1 : Fin 2))) (Ideal.ofBits .f32 0xFF800000#32)) = _
  rw [ofBits_neg_inf, max_bot_right, hl 0, hl 1]

/-- A rank-5 index of the labels' broadcast shape with a trailing unit coordinate added. -/
abbrev addLast (q : S6x16x1x512x512.Idx) : S6x16x1x512x512x1.Idx := fun a => match a with
  | ⟨0, _⟩ => ⟨(q 0).val, (q 0).isLt⟩
  | ⟨1, _⟩ => ⟨(q 1).val, (q 1).isLt⟩
  | ⟨2, _⟩ => ⟨(q 2).val, (q 2).isLt⟩
  | ⟨3, _⟩ => ⟨(q 3).val, (q 3).isLt⟩
  | ⟨4, _⟩ => ⟨(q 4).val, (q 4).isLt⟩
  | ⟨5, _⟩ => ⟨0, Nat.one_pos⟩

/-- The reshape that adds a trailing unit axis reads the operand at the same five coordinates. -/
theorem val_main_call1_v5_apply (x1 : (⟨S16x512x512, .i32⟩ : BufTy).Contents (Elt Ideal)) (q : S6x16x1x512x512.Idx) :
    val_main_call1_v5 (F := Ideal) x1 (addLast q) = val_main_call1_v4 (F := Ideal) x1 q := by
  unfold val_main_call1_v5
  generalize val_main_call1_v4 (F := Ideal) x1 = y
  exact shapeCast_apply y shapeCasts_S6x16x1x512x512_S6x16x1x512x512x1 (addLast q) q
    (by rewrite [Shape.rowMajor_val_five, Shape.rowMajor_val_six]
        show ((((q 0).val * 16 + (q 1).val) * 1 + (q 2).val) * 512 + (q 3).val) * 512 + (q 4).val
          = (((((q 0).val * 16 + (q 1).val) * 1 + (q 2).val) * 512 + (q 3).val) * 512 + (q 4).val) * 1 + 0
        omega)

/-- The conjunction over the trailing unit axis, from `true`: the one entry there. -/
theorem val_main_call1_v12_apply (x1 : (⟨S16x512x512, .i32⟩ : BufTy).Contents (Elt Ideal)) (q : S6x16x1x512x512.Idx) :
    val_main_call1_v12 (F := Ideal) x1 q = IntOp.andi (val_main_call1_v11 (F := Ideal) x1 (addLast q)) 1#1 := by
  have hR : S6x16x1x512x512x1.Reduces [5] S6x16x1x512x512 := by decide
  have hl : hR.lift q (0 : Fin 1) = addLast q := funext fun a => Fin.ext (by
    match a with | ⟨0, _⟩ => rfl | ⟨1, _⟩ => rfl | ⟨2, _⟩ => rfl | ⟨3, _⟩ => rfl | ⟨4, _⟩ => rfl | ⟨5, _⟩ => rfl)
  unfold val_main_call1_v12
  generalize val_main_call1_v11 (F := Ideal) x1 = y
  have key := Host.reduce_eq_fold_single (α := BitVec 1) (s := S6x16x1x512x512x1) (t := S6x16x1x512x512) (u := S_) (a := 5)
    (IntOp.andi (w := 1)) y (val_main_call1_c_3 (F := Ideal)) reducesTo_S6x16x1x512x512x1_S6x16x1x512x512_d5 hR h_S_ q
  rw [key]
  refine (fold_fin1 (α := BitVec 1) _ _ _).trans ?_
  show IntOp.andi (y (hR.lift q (0 : Fin 1))) 1#1 = _
  rw [hl]

end XEnt.Ref

end
-- ==== Proof.RefValueGather.lean ====
/-
  The reference's gather along the class axis, read at an index: the operand at the index's four batch coordinates
  and, on the class axis, the start index read signed and clamped into `[0, 1]`.
-/
import proofs.«425725_j7799660609794_1_alg».proof.Proof.RefValueStages

noncomputable section

namespace XEnt.Ref

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The operand index of the gather at `q`: `q`'s batch coordinates, class `c` on the class axis. -/
abbrev gatherIdx (q : S6x16x1x512x512.Idx) (c : Fin 2) : S6x16x2x512x512.Idx := fun a => match a with
  | ⟨0, _⟩ => ⟨(q 0).val, (q 0).isLt⟩
  | ⟨1, _⟩ => ⟨(q 1).val, (q 1).isLt⟩
  | ⟨2, _⟩ => c
  | ⟨3, _⟩ => ⟨(q 3).val, (q 3).isLt⟩
  | ⟨4, _⟩ => ⟨(q 4).val, (q 4).isLt⟩

local notation "gd" => gather_S6x16x2x512x512_S6x16x1x512x512x1_S6x16x1x512x512_n_2_0134_0134_2_5_11111

/-- On a batching axis of the gather the operand coordinate is the batching coordinate alone. -/
theorem operandIdx_batching {w : Nat} (q : S6x16x1x512x512.Idx) (idx : IVec S6x16x1x512x512x1 w) (a : Fin 5)
    (hmem : a ∈ (gd).operandBatchingDims) :
    ((gd).operandIdx q idx a).val = (gd).batchCoord q a := by
  show (gd).start q idx a + (gd).batchCoord q a + (gd).offCoord q a = _
  rw [(gd).start_batching q idx a hmem, (gd).offCoord_eq_zero q a (fun h => (((gd).mem_sKept a).mp h).2 hmem),
    Nat.zero_add, Nat.add_zero]

/-- The gather along the class axis: the log-softmax entry whose class is the start index at `q`, read signed and
    clamped into `[0, 1]`; the other four coordinates are `q`'s. -/
theorem val_main_call1_v13_apply (x0 : (⟨S6x16x2x512x512, .f32⟩ : BufTy).Contents (Elt Ideal))
    (x1 : (⟨S16x512x512, .i32⟩ : BufTy).Contents (Elt Ideal)) (q : S6x16x1x512x512.Idx) (c : Fin 2)
    (hc : c.val = min (val_main_call1_v5 (F := Ideal) x1 (addLast q)).toInt.toNat 1) :
    val_main_call1_v13 (F := Ideal) x0 x1 q = val_main_v0 (F := Ideal) x0 (gatherIdx q c) := by
  unfold val_main_call1_v13 Host.gather
  generalize val_main_v0 (F := Ideal) x0 = y
  refine congrArg y (funext fun a => Fin.ext ?_)
  match a with
  | ⟨0, _⟩ =>
    have hmem : (⟨0, by decide⟩ : Fin 5) ∈ (gd).operandBatchingDims := List.mem_cons_self
    rw [operandIdx_batching q _ _ hmem]; unfold GatherDims.batchCoord; rw [dif_pos hmem]; rfl
  | ⟨1, _⟩ =>
    have hmem : (⟨1, by decide⟩ : Fin 5) ∈ (gd).operandBatchingDims := List.mem_cons_of_mem _ List.mem_cons_self
    rw [operandIdx_batching q _ _ hmem]; unfold GatherDims.batchCoord; rw [dif_pos hmem]; rfl
  | ⟨3, _⟩ =>
    have hmem : (⟨3, by decide⟩ : Fin 5) ∈ (gd).operandBatchingDims :=
      List.mem_cons_of_mem _ (List.mem_cons_of_mem _ List.mem_cons_self)
    rw [operandIdx_batching q _ _ hmem]; unfold GatherDims.batchCoord; rw [dif_pos hmem]; rfl
  | ⟨4, _⟩ =>
    have hmem : (⟨4, by decide⟩ : Fin 5) ∈ (gd).operandBatchingDims :=
      List.mem_cons_of_mem _ (List.mem_cons_of_mem _ (List.mem_cons_of_mem _ List.mem_cons_self))
    rw [operandIdx_batching q _ _ hmem]; unfold GatherDims.batchCoord; rw [dif_pos hmem]; rfl
  | ⟨2, _⟩ =>
    have hsi : (gd).siIdx q ⟨0, by decide⟩ = addLast q := funext fun b => Fin.ext (by
      match b with | ⟨0, _⟩ => rfl | ⟨1, _⟩ => rfl | ⟨2, _⟩ => rfl | ⟨3, _⟩ => rfl | ⟨4, _⟩ => rfl | ⟨5, _⟩ => rfl)
    show min (val_main_call1_v5 (F := Ideal) x1 ((gd).siIdx q ⟨0, by decide⟩)).toInt.toNat (2 - 1) + 0 + 0 = _
    rw [hsi]
    exact hc.symm

end XEnt.Ref

end
-- ==== Proof.RefValueLogp.lean ====
/-
  The reference's log-softmax, label wrap and range test read at one pixel `(j, b, h, w)`.
-/
import proofs.«425725_j7799660609794_1_alg».proof.Proof.RefValueStages

noncomputable section

namespace XEnt.Ref

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

variable (x0 : (⟨S6x16x2x512x512, .f32⟩ : BufTy).Contents (Elt Ideal)) (x1 : (⟨S16x512x512, .i32⟩ : BufTy).Contents (Elt Ideal))
variable (j : Fin 6) (b : Fin 16) (h w : Fin 512)

/-- Inserting class `k` into the pixel `(j, b, h, w)`. -/
theorem idx_v7_ix4 (k : Fin 2) : idx_main_call0_v7 (ix4 j b h w) k = ix5 j b k h w :=
  funext fun a => by match a with | ⟨0, _⟩ => rfl | ⟨1, _⟩ => rfl | ⟨2, _⟩ => rfl | ⟨3, _⟩ => rfl | ⟨4, _⟩ => rfl

/-- The maximum broadcast back over the class axis: at every class the larger of the pixel's two logits. -/
theorem val_main_call0_v4_ix5 (c : Fin 2) :
    val_main_call0_v4 (F := Ideal) x0 (ix5 j b c h w) = max (x0 (ix5 j b (0 : Fin 2) h w)) (x0 (ix5 j b (1 : Fin 2) h w)) := by
  have e1 : idx_main_call0_v3 (idx_main_call0_v4 (ix5 j b c h w)) = ix4 j b h w :=
    funext fun a => by match a with | ⟨0, _⟩ => rfl | ⟨1, _⟩ => rfl | ⟨2, _⟩ => rfl | ⟨3, _⟩ => rfl
  rw [val_main_call0_v4_apply, val_main_call0_v3_apply, e1, val_main_call0_v2_apply, val_main_call0_v1_apply,
    val_main_call0_cst_0_apply, val_main_call0_v0_apply, idx_v7_ix4, idx_v7_ix4]
  show max (Ideal.ofBits .f32 0xFF800000#32) _ = _
  rw [ofBits_neg_inf, max_bot_left]

/-- The log-softmax entry of class `c` at the pixel `(j, b, h, w)`. -/
theorem val_main_v0_ix5 (c : Fin 2) :
    val_main_v0 (F := Ideal) x0 (ix5 j b c h w)
      = (x0 (ix5 j b c h w) - max (x0 (ix5 j b (0 : Fin 2) h w)) (x0 (ix5 j b (1 : Fin 2) h w)))
        - Ideal.log (0 + (Ideal.exp (x0 (ix5 j b (0 : Fin 2) h w) - max (x0 (ix5 j b (0 : Fin 2) h w)) (x0 (ix5 j b (1 : Fin 2) h w)))
            + Ideal.exp (x0 (ix5 j b (1 : Fin 2) h w) - max (x0 (ix5 j b (0 : Fin 2) h w)) (x0 (ix5 j b (1 : Fin 2) h w))))) := by
  have e8 : idx_main_call0_v8 (idx_main_call0_v10 (ix5 j b c h w)) = ix4 j b h w :=
    funext fun a => by match a with | ⟨0, _⟩ => rfl | ⟨1, _⟩ => rfl | ⟨2, _⟩ => rfl | ⟨3, _⟩ => rfl
  rw [val_main_v0_apply, val_main_call0_v10_apply, val_main_call0_v9_apply, val_main_call0_v8_apply, e8,
    val_main_call0_v7_apply, Fin.sum_univ_two, idx_v7_ix4, idx_v7_ix4]
  simp only [val_main_call0_v6_apply, val_main_call0_v5_apply, val_main_call0_v4_ix5, val_main_call0_cst_1_apply]
  show (x0 (ix5 j b c h w) - _) - Ideal.log (Ideal.ofBits .f32 0x00000000#32 + _) = _
  rw [Ideal.ofBits_zero_f32]
  rfl

/-- The label broadcast over the leading axis and a unit class axis: the pixel's label. -/
theorem val_main_v2_ix5 : val_main_v2 (F := Ideal) x1 (ix5 j b (0 : Fin 1) h w) = x1 (ix3 b h w) := by
  have e : idx_main_v1 (idx_main_v2 (ix5 j b (0 : Fin 1) h w)) = ix3 b h w :=
    funext fun a => by match a with | ⟨0, _⟩ => rfl | ⟨1, _⟩ => rfl | ⟨2, _⟩ => rfl
  rw [val_main_v2_apply, val_main_v1_apply, e]

/-- A label that is `0` or `1` is not negative, so the wrap `label < 0 ? label + 2 : label` keeps it. -/
theorem val_main_call1_v4_ix5 (ht : x1 (ix3 b h w) = 0#32 ∨ x1 (ix3 b h w) = 1#32) :
    val_main_call1_v4 (F := Ideal) x1 (ix5 j b (0 : Fin 1) h w) = x1 (ix3 b h w) := by
  rw [val_main_call1_v4_apply, val_main_call1_v1_apply, val_main_call1_v3_apply, val_main_v2_ix5, val_main_call1_v0_apply,
    val_main_call1_c_apply, val_main_call1_v2_apply, val_main_call1_c_0_apply]
  rcases ht with h0 | h1
  · rw [h0]; rfl
  · rw [h1]; rfl

/-- Such a label lies in `[0, 1]`, so the gather's range test holds. -/
theorem val_main_call1_v12_ix5 (ht : x1 (ix3 b h w) = 0#32 ∨ x1 (ix3 b h w) = 1#32) :
    val_main_call1_v12 (F := Ideal) x1 (ix5 j b (0 : Fin 1) h w) = 1#1 := by
  rw [val_main_call1_v12_apply, val_main_call1_v11_apply, val_main_call1_v7_apply, val_main_call1_v10_apply,
    val_main_call1_v5_apply, val_main_call1_v4_ix5 x1 j b h w ht, val_main_call1_v6_apply, val_main_call1_c_2_apply,
    val_main_call1_v9_apply, val_main_call1_v8_apply, val_main_call1_c_1_apply]
  rcases ht with h0 | h1
  · rw [h0]; rfl
  · rw [h1]; rfl

end XEnt.Ref

end
-- ==== Proof.RefValue.lean ====
/-
  The reference's result as a function of the argument arrays.
-/
import proofs.«425725_j7799660609794_1_alg».proof.Proof.RefReadP
import proofs.«425725_j7799660609794_1_alg».proof.Proof.Spec
import proofs.«425725_j7799660609794_1_alg».proof.Proof.RefValuePix
import proofs.«425725_j7799660609794_1_alg».proof.Proof.RefValueSum
import proofs.«425725_j7799660609794_1_alg».proof.Proof.RefValueGather
import proofs.«425725_j7799660609794_1_alg».proof.Proof.RefValueLogp

noncomputable section

namespace XEnt.Ref

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

section Pixel
variable (x0 : (⟨S6x16x2x512x512, .f32⟩ : BufTy).Contents (Elt Ideal)) (x1 : (⟨S16x512x512, .i32⟩ : BufTy).Contents (Elt Ideal))
variable (j : Fin 6) (b : Fin 16) (h w : Fin 512)

/-- The reshape back to four axes reads the pixel `(j, b, h, w)` at the unit class coordinate. -/
theorem idx_v4_ix4 : idx_main_v4 (ix4 j b h w) = ix5 j b (0 : Fin 1) h w := by
  have hj := j.isLt; have hb := b.isLt; have hh := h.isLt; have hw := w.isLt
  funext a
  match a with
  | ⟨0, _⟩ => exact Fin.ext (by show (((j.val * 16 + b.val) * 512 + h.val) * 512 + w.val) / 4194304 = j.val; omega)
  | ⟨1, _⟩ => exact Fin.ext (by show (((j.val * 16 + b.val) * 512 + h.val) * 512 + w.val) / 262144 % 16 = b.val; omega)
  | ⟨2, _⟩ => rfl
  | ⟨3, _⟩ => exact Fin.ext (by show (((j.val * 16 + b.val) * 512 + h.val) * 512 + w.val) / 512 % 512 = h.val; omega)
  | ⟨4, _⟩ => exact Fin.ext (by show (((j.val * 16 + b.val) * 512 + h.val) * 512 + w.val) % 512 = w.val; omega)

/-- The gather's operand index at the pixel. -/
theorem gatherIdx_ix5 (c : Fin 2) : gatherIdx (ix5 j b (0 : Fin 1) h w) c = ix5 j b c h w :=
  funext fun a => by match a with | ⟨0, _⟩ => rfl | ⟨1, _⟩ => rfl | ⟨2, _⟩ => rfl | ⟨3, _⟩ => rfl | ⟨4, _⟩ => rfl

/-- ONE PIXEL: on finite logits and a label in `{0, 1}`, the negated gathered log-softmax entry is the
    specification's negative log-likelihood of the pixel. -/
theorem val_main_v5_ix4 (hfin : ∀ i, ∃ r : ℝ, x0 i = (r : EReal)) (htg : ∀ i, x1 i = 0#32 ∨ x1 i = 1#32) :
    val_main_v5 (F := Ideal) x0 x1 (ix4 j b h w) = XEnt.pix x0 x1 j b h w := by
  obtain ⟨a0, ha0⟩ := hfin (ix5 j b (0 : Fin 2) h w)
  obtain ⟨a1, ha1⟩ := hfin (ix5 j b (1 : Fin 2) h w)
  have ht := htg (ix3 b h w)
  rw [val_main_v5_apply, val_main_v4_apply, idx_v4_ix4, val_main_v3_apply, val_main_call1_v12_ix5 x1 j b h w ht]
  show -(Scalar.select 1#1 _ _) = _
  rw [select_one]
  unfold XEnt.pix
  rcases ht with h0 | h1
  · have hc : ((0 : Fin 2) : Fin 2).val
        = min (val_main_call1_v5 (F := Ideal) x1 (addLast (ix5 j b (0 : Fin 1) h w))).toInt.toNat 1 := by
      rw [val_main_call1_v5_apply, val_main_call1_v4_ix5 x1 j b h w (Or.inl h0), h0]; rfl
    rw [val_main_call1_v13_apply x0 x1 _ 0 hc, gatherIdx_ix5, val_main_v0_ix5, ha0, ha1, h0]
    have key := neg_logp_eq_nll a0 a1 0#32 _ rfl
    rw [if_pos rfl] at key
    exact key
  · have hc : ((1 : Fin 2) : Fin 2).val
        = min (val_main_call1_v5 (F := Ideal) x1 (addLast (ix5 j b (0 : Fin 1) h w))).toInt.toNat 1 := by
      rw [val_main_call1_v5_apply, val_main_call1_v4_ix5 x1 j b h w (Or.inr h1), h1]; rfl
    rw [val_main_call1_v13_apply x0 x1 _ 1 hc, gatherIdx_ix5, val_main_v0_ix5, ha0, ha1, h1]
    have key := neg_logp_eq_nll a0 a1 1#32 _ rfl
    rw [if_neg (by decide)] at key
    exact key

end Pixel

/-- THE REFERENCE'S VALUE: on finite logits and labels in `{0, 1}` the reference returns the mean negative
    log-likelihood of the specification. -/
theorem val_eq_mean (x0 : (⟨Cert.ReferenceIdeal.S6x16x2x512x512, .f32⟩ : BufTy).Contents (Elt Ideal))
    (x1 : (⟨Cert.ReferenceIdeal.S16x512x512, .i32⟩ : BufTy).Contents (Elt Ideal))
    (hfin : ∀ i, ∃ r : ℝ, x0 i = (r : EReal)) (htg : ∀ i, x1 i = 0#32 ∨ x1 i = 1#32) :
    Cert.ReferenceIdeal.ReadP.val_main_v7 (F := Ideal) x0 x1 = fun _ => XEnt.mean x0 x1 := by
  funext i
  rw [val_main_v7_apply, val_main_v6_apply, val_main_cst_apply, val_main_cst_0_apply]
  show Ideal.div (Ideal.ofBits .f32 0x00000000#32 + ∑ p : S6x16x512x512.Idx, val_main_v5 (F := Ideal) x0 x1 p)
      (Ideal.ofBits .f32 0x4BC00000#32) = XEnt.mean x0 x1
  rw [Ideal.ofBits_zero_f32, zero_add, sum_idx4]
  unfold XEnt.mean XEnt.total
  refine congrArg (fun s => Ideal.div s (Ideal.ofBits .f32 0x4BC00000#32)) ?_
  exact Finset.sum_congr rfl fun j _ => Finset.sum_congr rfl fun b _ => Finset.sum_congr rfl fun h _ =>
    Finset.sum_congr rfl fun w _ => val_main_v5_ix4 x0 x1 j b h w hfin htg

end XEnt.Ref

end
-- ==== Proof.PreDecode.lean ====
/-
  The precondition read back.

  The printed predicate is the conjunction of two tests, each an `and` over a whole array: `|x| < +∞` at every
  logit, and `0 ≤ t` and `t < 2` (signed) at every label. If it is 1, every logit is a real number and every
  label is the word 0 or the word 1.
-/
import Idealize.ShloMosaic.Lib.ReduceAll
import Idealize.ShloMosaic.Lib.StableHlo.Predicate
import Idealize.ShloMosaic.PureOps.Ideal
import proofs.«425725_j7799660609794_1_alg».proof.Pre_finite_inputs
import proofs.«425725_j7799660609794_1_alg».proof.Proof.Spec

noncomputable section

namespace XEnt

open Idealize.ShloMosaic Idealize.ShloMosaic.ValueIdx

/-- The shape of a scalar has one index. -/
instance : Subsingleton Cert.Pre_finite_inputs.S_.Idx := ⟨fun a b => funext fun d => d.elim0⟩

/-- The pattern `0x7F800000` (sign clear, exponent all ones, fraction zero) denotes `+∞`. -/
theorem inf_bits : Ideal.ofBits .f32 0x7F800000#32 = (⊤ : EReal) := by
  simp [Ideal.ofBits, Ideal.ieee]

/-- An extended real whose absolute value `max a (-a)` is below `+∞` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- A 32-bit word that is at least 0 and below 2, both read signed, is 0 or 1. -/
theorem word_zero_or_one (t : BitVec 32) (h0 : (0#32).sle t = true) (h2 : t.slt 2#32 = true) :
    t = 0#32 ∨ t = 1#32 := by
  rw [BitVec.sle_iff_toInt_le, BitVec.toInt_zero] at h0
  rw [BitVec.slt_iff_toInt_lt, show (2#32).toInt = 2 from by decide] at h2
  have e := BitVec.toInt_eq_toNat_cond t
  have hlt := t.isLt
  have hn : t.toNat = 0 ∨ t.toNat = 1 := by
    split at e <;> omega
  rcases hn with hn | hn
  · exact Or.inl (BitVec.eq_of_toNat_eq (by rw [hn]; rfl))
  · exact Or.inr (BitVec.eq_of_toNat_eq (by rw [hn]; rfl))

theorem pre_decode [Cert.Pre_finite_inputs.Facts] (x : SL.Idx → EReal) (tg : ST.Idx → BitVec 32)
    (h : Cert.Pre_finite_inputs.fn (F := Ideal) x tg = fun _ => 1#1) :
    (∀ i, ∃ r : ℝ, x i = (r : EReal)) ∧ (∀ i, tg i = 0#32 ∨ tg i = 1#32) := by
  -- the scalar result at its one index, as the conjunction of the two reductions
  have h0 := congrFun h ix0
  dsimp only [Cert.Pre_finite_inputs.fn] at h0
  obtain ⟨hx, ht⟩ := IntOp.andi_eq_one.1 h0
  refine ⟨fun i => ?_, fun i => ?_⟩
  · -- the logits: `|x i| < +∞`
    have hi := Host.reduce_andi_all _ _ _ _ _ hx i
    have hi' : BitVec.ofBool (decide (max (x i) (-(x i)) < Ideal.ofBits .f32 0x7F800000#32)) = 1#1 := hi
    rw [inf_bits, StableHlo.Predicate.ofBool_eq_one_iff, decide_eq_true_eq] at hi'
    exact real_of_abs_lt_top _ hi'
  · -- the labels: `0 ≤ t` and `t < 2`, signed
    have hi := Host.reduce_andi_all _ _ _ _ _ ht i
    obtain ⟨h1, h2⟩ := IntOp.andi_eq_one.1 hi
    have h1' : BitVec.ofBool ((0#32).sle (tg i)) = 1#1 := h1
    have h2' : BitVec.ofBool ((tg i).slt 2#32) = 1#1 := h2
    exact word_zero_or_one _ ((StableHlo.Predicate.ofBool_eq_one_iff _).1 h1')
      ((StableHlo.Predicate.ofBool_eq_one_iff _).1 h2')

end XEnt

end
-- ==== Proof.lean ====
/-
  Two-class cross entropy: the kernel against its reference, over the extended reals.

  Both programs compute the mean, over the 6 · 16 · 512 · 512 pixels, of the negative log-likelihood
  `logsumexp(l0, l1) - l_t` of the pixel's two logits and its label `t`. The kernel writes it in the shifted form
  `max l0 l1 + log (1 + exp (-|l0 - l1|)) - (if t = 0 then l0 else l1)`, sums it block by block over a grid of
  2 · 3 · 8 points into one accumulator per core, and adds the two accumulators and divides on the host. The
  reference takes the log-softmax over the class axis, gathers the label's entry, negates and averages. For finite
  logits and labels in {0, 1} the two per-pixel values are one real number (one of `l0 - max`, `l1 - max` is 0 and
  the other is `-|l0 - l1|`), and the two sums differ only in grouping. Outside {0, 1} the reference reads another
  class (a wrapped negative label) or the NaN word, which is why the precondition bounds the labels.

  The frames of the two kernel programs are the generated ones; the reference's frame is its run with the result
  dropped. The idealization rewrote nothing.
-/
import proofs.«425725_j7799660609794_1_alg».proof.Defs
import proofs.«425725_j7799660609794_1_alg».proof.Proof.Gen.Kernel
import proofs.«425725_j7799660609794_1_alg».proof.Proof.Gen.Kernel.Skeleton
import proofs.«425725_j7799660609794_1_alg».proof.Proof.Gen.Kernel.Launch
import proofs.«425725_j7799660609794_1_alg».proof.Proof.Gen.Kernel.Points
import proofs.«425725_j7799660609794_1_alg».proof.Proof.Gen.Kernel.Frame
import proofs.«425725_j7799660609794_1_alg».proof.Proof.Gen.KernelIdeal
import proofs.«425725_j7799660609794_1_alg».proof.Proof.Gen.KernelIdeal.Skeleton
import proofs.«425725_j7799660609794_1_alg».proof.Proof.Gen.KernelIdeal.Launch
import proofs.«425725_j7799660609794_1_alg».proof.Proof.Gen.KernelIdeal.Points
import proofs.«425725_j7799660609794_1_alg».proof.Proof.Gen.KernelIdeal.Frame
import proofs.«425725_j7799660609794_1_alg».proof.Proof.Gen.ReferenceIdeal
import proofs.«425725_j7799660609794_1_alg».proof.Proof.Gen.Pre_finite_inputs
import proofs.«425725_j7799660609794_1_alg».proof.Proof.KValue
import proofs.«425725_j7799660609794_1_alg».proof.Proof.RefEval
import proofs.«425725_j7799660609794_1_alg».proof.Proof.RefValue
import proofs.«425725_j7799660609794_1_alg».proof.Proof.PreDecode
import Idealize.ShloMosaic.Adequacy
import Idealize.ShloMosaic.Init

noncomputable section

namespace Cert.Proof

open Idealize.ShloMosaic Idealize.ShloMosaic.TcCoe Idealize.SL.Sem

/-- The two kernel programs run, fault-free, leaving their arguments: the generated frames. -/
theorem frame_k : Cert.frame_Kernel := fun m ρ _ => Cert.Kernel.Gen.frame m ρ
theorem frame_ki : Cert.frame_KernelIdeal := fun m ρ _ => Cert.KernelIdeal.Gen.frame m ρ

/-- The reference runs, fault-free, leaving its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Over the extended reals both programs end at the mean negative log-likelihood of the arguments: the kernel's
    two per-core accumulators regrouped into the one sum over all pixels, the reference's log-softmax, gather and
    average read stage by stage; the precondition gives real logits and labels in {0, 1}, under which the
    reference's gather reads the label's class. -/
theorem algebraic : Cert.algebraic_KernelIdeal_ReferenceIdeal := by
  intro m ρ m' ρ' hpre hagree
  refine ⟨fun c => fun _ => XEnt.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), XEnt.KValue.run m ρ, ?_⟩
  refine (θ_run Cert.ReferenceIdeal.defs _ _).mono (fun _ h c => ⟨?_, (h c).2⟩)
    (Cert.ReferenceIdeal.ValueP.run (F := Ideal) m' ρ')
  obtain ⟨hfin, htg⟩ := XEnt.pre_decode _ _ (hpre c)
  rw [(h c).1, XEnt.RefEval.eval m' c, (hagree c).1, (hagree c).2]
  exact XEnt.Ref.val_eq_mean _ _ hfin htg

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
